-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S512x64 : Shape := ⟨2, ![512, 64]⟩
abbrev S64 : Shape := ⟨1, ![64]⟩
abbrev S64x512 : Shape := ⟨2, ![64, 512]⟩
abbrev S32768x1024 : Shape := ⟨2, ![32768, 1024]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_
  bcast_S_S32768x1024 : S_.BroadcastsInDim S32768x1024 (![] : Fin 0 → Fin S32768x1024.rank)
  reducesTo_S32768x1024_S_d0_1 : S32768x1024.ReducesTo [0, 1] S_

variable [Facts]

def fn_part1 {F : FTy → Type} [FloatOps F] (main_arg4 : FVec F S32768x1024 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S32768x1024 .f32 := Host.absf main_arg4
  let main_cst_6 : FVec F S_ .f32 := constant S_ .f32 0x7F800000#32
  let main_v20 : FVec F S32768x1024 .f32 := broadcastInDim S32768x1024 ![] bcast_S_S32768x1024 main_cst_6
  let main_v21 : IVec S32768x1024 1 := cmpf .olt main_v19 main_v20
  let main_c_7 : IVec S_ 1 := constantI S_ 1 1#1
  let main_v22 : IVec S_ 1 := (fun x v => Host.reduce IntOp.andi x v reducesTo_S32768x1024_S_d0_1 h_S_) main_v21 main_c_7
  let main_v23 : IVec S_ 1 := andi main_v18 main_v22
  main_v23

def fn {F : FTy → Type} [FloatOps F] (main_arg0 : FVec F S32x1024x512 .f32) (main_arg1 : FVec F S512x64 .f32) (main_arg2 : FVec F S64 .f32) (main_arg3 : FVec F S64x512 .f32) (main_arg4 : FVec F S32768x1024 .f32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_v13 main_v16
-- ==== Kernel.lean ====
abbrev S32x1024x512 : Shape := ⟨3, ![32, 1024, 512]⟩
abbrev S512x64 : Shape := ⟨2, ![512, 64]⟩
abbrev S64 : Shape := ⟨1, ![64]⟩
abbrev S64x512 : Shape := ⟨2, ![64, 512]⟩
abbrev S32768x1024 : Shape := ⟨2, ![32768, 1024]⟩
abbrev S1x64 : Shape := ⟨2, ![1, 64]⟩
abbrev S32x64x512 : Shape := ⟨3, ![32, 64, 512]⟩
abbrev S1x1024x512 : Shape := ⟨3, ![1, 1024, 512]⟩
abbrev S1x64x512 : Shape := ⟨3, ![1, 64, 512]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S64x1024 : Shape := ⟨2, ![64, 1024]⟩
abbrev S64x1 : Shape := ⟨2, ![64, 1]⟩
abbrev S1 : Shape := ⟨1, ![1]⟩
abbrev S1x1x1 : Shape := ⟨3, ![1, 1, 1]⟩
abbrev S1x1 : Shape := ⟨2, ![1, 1]⟩
abbrev S32x32768 : Shape := ⟨2, ![32, 32768]⟩
abbrev S32x1024 : Shape := ⟨2, ![32, 1024]⟩
abbrev S32x2048 : Shape := ⟨2, ![32, 2048]⟩
abbrev S2048x1024 : Shape := ⟨2, ![2048, 1024]⟩

abbrev nBuf : Space → Nat
  | .hbm => 9
  | .vmem => 13
  | .smem => 0
  | _ => 0

abbrev bufTy : (tb : Table) → Fin (tcTables nBuf tb) → BufTy
  | .hbm, ⟨0, _⟩ => ⟨S32x1024x512, .f32⟩
  | .hbm, ⟨1, _⟩ => ⟨S512x64, .f32⟩
  | .hbm, ⟨2, _⟩ => ⟨S64, .f32⟩
  | .hbm, ⟨3, _⟩ => ⟨S64x512, .f32⟩
  | .hbm, ⟨4, _⟩ => ⟨S32768x1024, .f32⟩
  | .hbm, ⟨5, _⟩ => ⟨S1x64, .f32⟩
  | .hbm, ⟨6, _⟩ => ⟨S32x64x512, .f32⟩
  | .hbm, ⟨7, _⟩ => ⟨S32x32768, .f32⟩
  | .hbm, ⟨8, _⟩ => ⟨S32x1024, .f32⟩
  | .local _ .vmem, ⟨0, _⟩ => ⟨S1x1024x512, .f32⟩
  | .local _ .vmem, ⟨1, _⟩ => ⟨S1x1024x512, .f32⟩
  | .local _ .vmem, ⟨2, _⟩ => ⟨S512x64, .f32⟩
  | .local _ .vmem, ⟨3, _⟩ => ⟨S1x64, .f32⟩
  | .local _ .vmem, ⟨4, _⟩ => ⟨S64x512, .f32⟩
  | .local _ .vmem, ⟨5, _⟩ => ⟨S1x64x512, .f32⟩
  | .local _ .vmem, ⟨6, _⟩ => ⟨S1x64x512, .f32⟩
  | .local _ .vmem, ⟨7, _⟩ => ⟨S32x2048, .f32⟩
  | .local _ .vmem, ⟨8, _⟩ => ⟨S32x2048, .f32⟩
  | .local _ .vmem, ⟨9, _⟩ => ⟨S2048x1024, .f32⟩
  | .local _ .vmem, ⟨10, _⟩ => ⟨S2048x1024, .f32⟩
  | .local _ .vmem, ⟨11, _⟩ => ⟨S32x1024, .f32⟩
  | .local _ .vmem, ⟨12, _⟩ => ⟨S32x1024, .f32⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S64_S1x64 : S64.ShapeCasts S1x64
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x512_S64x512_0_0 : ∀ a, (![0, 0] : Fin 2 → Nat) a + S64x512.size a ≤ S64x512.size a
  h_S64x512 : 0 < S64x512.numel
  bitsLt_bf16_f32 : FTy.bits .bf16 < FTy.bits .f32
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  transposes_S1024x64_p1_0_S64x1024 : S1024x64.Transposes [1, 0] S64x1024
  reduces_S1024x64_S64 : S1024x64.Reduces [0] S64
  shapeCasts_S64_S64x1 : S64.ShapeCasts S64x1
  broadcasts_S64x1_S64x512 : S64x1.Broadcasts S64x512
  reduces_S64x512_S64 : S64x512.Reduces [1] S64
  shapeCasts_S64x512_S1x64x512 : S64x512.ShapeCasts S1x64x512
  reduces_S1x64x512_S1 : S1x64x512.Reduces [1, 2] S1
  shapeCasts_S1_S1x1x1 : S1.ShapeCasts S1x1x1
  inpos_S1x1x1_p0_0_0 : ∀ a, (![0, 0, 0] : Fin 3 → Nat) a < S1x1x1.size a
  broadcasts_S1x1_S64x512 : S1x1.Broadcasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S32x64x512_S32x32768 : S32x64x512.ShapeCasts S32x32768
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S2048x1024_S2048x1024_0_0 : ∀ a, (![0, 0] : Fin 2 → Nat) a + S2048x1024.size a ≤ S2048x1024.size a
  h_S2048x1024 : 0 < S2048x1024.numel
  dot_S1024x512_S512x64_S1024x64_1_0_0_1_n_n_wf : DotDims.WF S1024x512 S512x64 S1024x64 [1] [0] [0] [1] [] []
  dot_S64x1024_S1024x512_S64x512_1_0_0_1_n_n_wf : DotDims.WF S64x1024 S1024x512 S64x512 [1] [0] [0] [1] [] []
  dot_S32x2048_S2048x1024_S32x1024_1_0_0_1_n_n_wf : DotDims.WF S32x2048 S2048x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x1024x512.size a
  hwx0_0 : ∀ i : grid0.Coords, EltTy.bits .f32 = 32 ∨ (Rect.block (s := S32x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512.size a ≤ S32x64x512.size a
  hwx0_4 : ∀ i : grid0.Coords, EltTy.bits .f32 = 32 ∨ (Rect.block (s := S32x64x512) S1x64x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x2048.size a ≤ S32x32768.size a
  hwx1_0 : ∀ i : grid1.Coords, EltTy.bits .f32 = 32 ∨ (Rect.block (s := S32x32768) S32x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S32768x1024.size a
  hwx1_1 : ∀ i : grid1.Coords, EltTy.bits .f32 = 32 ∨ (Rect.block (s := S32768x1024) S2048x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1024.size a ≤ S32x1024.size a
  hwx1_2 : ∀ i : grid1.Coords, EltTy.bits .f32 = 32 ∨ (Rect.block (s := S32x1024) S32x1024.size (cc1_transform_2 i) (hinb1_2 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S32x2048_S2048x1024_S32x1024_1_0_0_1_n_n : DotDims S32x2048 S2048x1024 S32x1024 where
  lhsContracting := [1]
  rhsContracting := [0]
  lhsNonContracting := [0]
  rhsNonContracting := [1]
  lhsBatch := []
  rhsBatch := []
  wf := dot_S32x2048_S2048x1024_S32x1024_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S32x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S32x1024.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x1024x512 : Shape := ⟨3, ![32, 1024, 512]⟩
abbrev S512x64 : Shape := ⟨2, ![512, 64]⟩
abbrev S64 : Shape := ⟨1, ![64]⟩
abbrev S64x512 : Shape := ⟨2, ![64, 512]⟩
abbrev S32768x1024 : Shape := ⟨2, ![32768, 1024]⟩
abbrev S32x1024x64 : Shape := ⟨3, ![32, 1024, 64]⟩
abbrev S1x1x64 : Shape := ⟨3, ![1, 1, 64]⟩
abbrev S_ : Shape := ⟨0, ![]⟩
abbrev S32x1024 : Shape := ⟨2, ![32, 1024]⟩
abbrev S32x1024x1 : Shape := ⟨3, ![32, 1024, 1]⟩
abbrev S32x64x512 : Shape := ⟨3, ![32, 64, 512]⟩
abbrev S32x64 : Shape := ⟨2, ![32, 64]⟩
abbrev S32x64x1 : Shape := ⟨3, ![32, 64, 1]⟩
abbrev S1x64x512 : Shape := ⟨3, ![1, 64, 512]⟩
abbrev S32x32768 : Shape := ⟨2, ![32, 32768]⟩
abbrev S32 : Shape := ⟨1, ![32]⟩
abbrev S32x1 : Shape := ⟨2, ![32, 1]⟩

abbrev nBuf : Space → Nat
  | .hbm => 54
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S512x64, .f32⟩
  | .hbm, ⟨2, _⟩ => ⟨S64, .f32⟩
  | .hbm, ⟨3, _⟩ => ⟨S64x512, .f32⟩
  | .hbm, ⟨4, _⟩ => ⟨S32768x1024, .f32⟩
  | .hbm, ⟨5, _⟩ => ⟨S32x1024x64, .f32⟩
  | .hbm, ⟨6, _⟩ => ⟨S1x1x64, .f32⟩
  | .hbm, ⟨7, _⟩ => ⟨S32x1024x64, .f32⟩
  | .hbm, ⟨8, _⟩ => ⟨S32x1024x64, .f32⟩
  | .hbm, ⟨9, _⟩ => ⟨S_, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024x1, .f32⟩
  | .hbm, ⟨15, _⟩ => ⟨S32x1024x64, .f32⟩
  | .hbm, ⟨16, _⟩ => ⟨S32x1024x64, .f32⟩
  | .hbm, ⟨17, _⟩ => ⟨S32x1024x64, .f32⟩
  | .hbm, ⟨18, _⟩ => ⟨S_, .f32⟩
  | .hbm, ⟨19, _⟩ => ⟨S32x1024, .f32⟩
  | .hbm, ⟨20, _⟩ => ⟨S32x1024x1, .f32⟩
  | .hbm, ⟨21, _⟩ => ⟨S32x1024x64, .f32⟩
  | .hbm, ⟨22, _⟩ => ⟨S32x1024x64, .f32⟩
  | .hbm, ⟨23, _⟩ => ⟨S32x64x512, .f32⟩
  | .hbm, ⟨24, _⟩ => ⟨S_, .f32⟩
  | .hbm, ⟨25, _⟩ => ⟨S32x64, .f32⟩
  | .hbm, ⟨26, _⟩ => ⟨S32x64x1, .f32⟩
  | .hbm, ⟨27, _⟩ => ⟨S1x64x512, .f32⟩
  | .hbm, ⟨28, _⟩ => ⟨S32x64x512, .f32⟩
  | .hbm, ⟨29, _⟩ => ⟨S32x64x512, .f32⟩
  | .hbm, ⟨30, _⟩ => ⟨S32x64x512, .f32⟩
  | .hbm, ⟨31, _⟩ => ⟨S32x64x512, .f32⟩
  | .hbm, ⟨32, _⟩ => ⟨S32x64x512, .f32⟩
  | .hbm, ⟨33, _⟩ => ⟨S_, .f32⟩
  | .hbm, ⟨34, _⟩ => ⟨S32x64, .f32⟩
  | .hbm, ⟨35, _⟩ => ⟨S32x64x1, .f32⟩
  | .hbm, ⟨36, _⟩ => ⟨S_, .f32⟩
  | .hbm, ⟨37, _⟩ => ⟨S32x64x1, .f32⟩
  | .hbm, ⟨38, _⟩ => ⟨S32x64x1, .f32⟩
  | .hbm, ⟨39, _⟩ => ⟨S32x64x1, .f32⟩
  | .hbm, ⟨40, _⟩ => ⟨S32x64x512, .f32⟩
  | .hbm, ⟨41, _⟩ => ⟨S32x64x512, .f32⟩
  | .hbm, ⟨42, _⟩ => ⟨S32x32768, .f32⟩
  | .hbm, ⟨43, _⟩ => ⟨S32x32768, .f32⟩
  | .hbm, ⟨44, _⟩ => ⟨S_, .f32⟩
  | .hbm, ⟨45, _⟩ => ⟨S32, .f32⟩
  | .hbm, ⟨46, _⟩ => ⟨S32x1, .f32⟩
  | .hbm, ⟨47, _⟩ => ⟨S_, .f32⟩
  | .hbm, ⟨48, _⟩ => ⟨S32x1, .f32⟩
  | .hbm, ⟨49, _⟩ => ⟨S32x1, .f32⟩
  | .hbm, ⟨50, _⟩ => ⟨S32x1, .f32⟩
  | .hbm, ⟨51, _⟩ => ⟨S32x32768, .f32⟩
  | .hbm, ⟨52, _⟩ => ⟨S32x32768, .f32⟩
  | .hbm, ⟨53, _⟩ => ⟨S32x1024, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S32x1024x64_0_1_2 : S1x1x64.BroadcastsInDim S32x1024x64 (![0, 1, 2] : Fin 3 → Fin S32x1024x64.rank)
  reducesTo_S32x1024x64_S32x1024_d2 : S32x1024x64.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x64_0_1_2 : S32x1024x1.BroadcastsInDim S32x1024x64 (![0, 1, 2] : Fin 3 → Fin S32x1024x64.rank)
  reducesTo_S32x1024x64_S32x64_d1 : S32x1024x64.ReducesTo [1] S32x64
  bcast_S32x64_S32x64x1_0_1 : S32x64.BroadcastsInDim S32x64x1 (![0, 1] : Fin 2 → Fin S32x64x1.rank)
  bcast_S64x512_S1x64x512_1_2 : S64x512.BroadcastsInDim S1x64x512 (![1, 2] : Fin 2 → Fin S1x64x512.rank)
  bcast_S32x64x1_S32x64x512_0_1_2 : S32x64x1.BroadcastsInDim S32x64x512 (![0, 1, 2] : Fin 3 → Fin S32x64x512.rank)
  bcast_S1x64x512_S32x64x512_0_1_2 : S1x64x512.BroadcastsInDim S32x64x512 (![0, 1, 2] : Fin 3 → Fin S32x64x512.rank)
  reducesTo_S32x64x512_S32x64_d2 : S32x64x512.ReducesTo [2] S32x64
  bcast_S_S32x64x1 : S_.BroadcastsInDim S32x64x1 (![] : Fin 0 → Fin S32x64x1.rank)
  shapeCasts_S32x64x512_S32x32768 : S32x64x512.ShapeCasts S32x32768
  reducesTo_S32x32768_S32_d1 : S32x32768.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32768_0_1 : S32x1.BroadcastsInDim S32x32768 (![0, 1] : Fin 2 → Fin S32x32768.rank)
  dot_S32x1024x512_S512x64_S32x1024x64_2_0_01_1_n_n_wf : DotDims.WF S32x1024x512 S512x64 S32x1024x64 [2] [0] [0, 1] [1] [] []
  dot_S32x1024x64_S32x1024x512_S32x64x512_1_1_2_2_0_0_wf : DotDims.WF S32x1024x64 S32x1024x512 S32x64x512 [1] [1] [2] [2] [0] [0]
  dot_S32x32768_S32768x1024_S32x1024_1_0_0_1_n_n_wf : DotDims.WF S32x32768 S32768x1024 S32x1024 [1] [0] [0] [1] [] []

variable [Facts₀]

def dot_S32x1024x512_S512x64_S32x1024x64_2_0_01_1_n_n : DotDims S32x1024x512 S512x64 S32x1024x64 where
  lhsContracting := [2]
  rhsContracting := [0]
  lhsNonContracting := [0, 1]
  rhsNonContracting := [1]
  lhsBatch := []
  rhsBatch := []
  wf := dot_S32x1024x512_S512x64_S32x1024x64_2_0_01_1_n_n_wf
def dot_S32x1024x64_S32x1024x512_S32x64x512_1_1_2_2_0_0 : DotDims S32x1024x64 S32x1024x512 S32x64x512 where
  lhsContracting := [1]
  rhsContracting := [1]
  lhsNonContracting := [2]
  rhsNonContracting := [2]
  lhsBatch := [0]
  rhsBatch := [0]
  wf := dot_S32x1024x64_S32x1024x512_S32x64x512_1_1_2_2_0_0_wf
def dot_S32x32768_S32768x1024_S32x1024_1_0_0_1_n_n : DotDims S32x32768 S32768x1024 S32x1024 where
  lhsContracting := [1]
  rhsContracting := [0]
  lhsNonContracting := [0]
  rhsNonContracting := [1]
  lhsBatch := []
  rhsBatch := []
  wf := dot_S32x32768_S32768x1024_S32x1024_1_0_0_1_n_n_wf

class Facts : Prop extends Facts₀ where

variable [Facts]
-- ==== Proof.Kernel.Netvlad.lean ====
/-
  The first kernel region: one grid point per batch element.  At point t the body reads that element's
  1024 × 512 descriptors (window 0, block t), the 512 × 64 weights, the bias row and the 64 × 512 centres
  (windows 1 to 3, one block each, the same at every point) and stores one whole 1 × 64 × 512 block of the
  result (window 4, block t).  Here: what each input's staging buffer holds when the body starts, what the
  output's holds when it ends, and that the body run from that state ends in this one, for any contents V
  of the arrays at the region's entry and at any float instance.
-/
import proofs.«162594_j65197603553867_1_alg».proof.Proof.Gen.Kernel.Launch
import proofs.«162594_j65197603553867_1_alg».proof.Proof.Gen.Kernel.Skeleton
import proofs.«162594_j65197603553867_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    at this point or the block index has not moved since it did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each the whole of its buffer -/

abbrev rX : Rect S1x1024x512 := Rect.unit (s := S1x1024x512) ![0, 0, 0] S1x1024x512.size inb_S1x1024x512_S1x1024x512_0_0_0
abbrev rW : Rect S512x64 := Rect.unit (s := S512x64) ![0, 0] S512x64.size inb_S512x64_S512x64_0_0
abbrev rB : Rect S1x64 := Rect.unit (s := S1x64) ![0, 0] S1x64.size inb_S1x64_S1x64_0_0
abbrev rC : Rect S64x512 := Rect.unit (s := S64x512) ![0, 0] S64x512.size inb_S64x512_S64x512_0_0
abbrev rO : Rect S1x64x512 := Rect.unit (s := S1x64x512) ![0, 0, 0] S1x64x512.size inb_S1x64x512_S1x64x512_0_0_0

/-- What the body leaves in the output's staging buffer, from the four input blocks: its one store, of the
    doubly normalised residual table of the loaded descriptors. -/
def out0_4 (x0 : Vec F S1x1024x512 .f32) (x1 : Vec F S512x64 .f32) (x2 : Vec F S1x64 .f32) (x3 : Vec F S64x512 .f32) : Vec F S1x64x512 .f32 :=
  View.canon [⟨rO, k0_pay1 (k0_pay2 (View.ld x0 rX) (View.ld x1 rW) (View.ld x2 rB) (View.ld x3 rC))
    (k0_pay3 (View.ld x0 rX) (View.ld x1 rW) (View.ld x2 rB) (View.ld x3 rC))⟩]

/-- The one store covers the buffer. -/
theorem cover0_4 (p0 : Vec F S1x64x512 .f32) (y : S1x64x512.Idx) :
    ∃ pc ∈ ([⟨rO, p0⟩] : List (View.Piece (Elt F) S1x64x512 .f32)), y ∈ pc.1.set :=
  View.cover_of_tiled [⟨rO, p0⟩] S1x64x512.size (by rfl) y

set_option maxHeartbeats 4000000 in
/-- The body on whole staging buffers, the inputs' at given contents and the output's at anything, runs to a
    state with the inputs' as they were and the output's at `out0_4` of them. -/
theorem sound_kernel0 (c : Dev nD) (E : Set ℕ) (i : grid0.Coords)
    (arg1 : Memref sig .tc .vmem S1x1024x512 .f32) (harg1 : arg1.IsWhole) (arg2 : Memref sig .tc .vmem S512x64 .f32) (harg2 : arg2.IsWhole)
    (arg3 : Memref sig .tc .vmem S1x64 .f32) (harg3 : arg3.IsWhole) (arg4 : Memref sig .tc .vmem S64x512 .f32) (harg4 : arg4.IsWhole)
    (arg5 : Memref sig .tc .vmem S1x64x512 .f32) (harg5 : arg5.IsWhole)
    (x0 : Vec F S1x1024x512 .f32) (x1 : Vec F S512x64 .f32) (x2 : Vec F S1x64 .f32) (x3 : Vec F S64x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__netvlad_kernel i arg1 harg1 arg2 harg2 arg3 harg3 arg4 harg4 arg5 harg5) K := by
  simp only [cc0__netvlad_kernel_eq_skeleton]; unfold cc0__netvlad_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The region's proof data -/

/-- The arrays as the region finds them; after the body at point t each input's buffer at its block and the
    output's at `out0_4` of the four blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.Kernel.Project.lean ====
/-
  The second kernel region: sixteen grid points, one per run of 2048 columns of the flattened table.  At
  point t the body reads block t of the flattened 32 × 32768 table (window 0) and block t of the
  32768 × 1024 matrix (window 1), adds their product to an accumulator it keeps in a scratch buffer of its own
  (set to zero first at point 0), and copies the accumulator into the staging buffer of the 32 × 1024 result
  (window 2, one block, written back after the last point).  Here: the accumulator after each point as a
  recursion over the points; the region's invariant, which carries the scratch buffer at that value beside the
  scoped buffers this region does not use; and that the body run at a point takes the one to the next.
-/
import proofs.«162594_j65197603553867_1_alg».proof.Proof.Gen.Kernel.Launch
import proofs.«162594_j65197603553867_1_alg».proof.Proof.Gen.Kernel.Skeleton
import proofs.«162594_j65197603553867_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The rectangles the body reads and writes: each the whole of its buffer -/

abbrev rF : Rect S32x2048 := Rect.unit (s := S32x2048) ![0, 0] S32x2048.size inb_S32x2048_S32x2048_0_0
abbrev rR : Rect S2048x1024 := Rect.unit (s := S2048x1024) ![0, 0] S2048x1024.size inb_S2048x1024_S2048x1024_0_0
abbrev rA : Rect S32x1024 := Rect.unit (s := S32x1024) ![0, 0] S32x1024.size inb_S32x1024_S32x1024_0_0

theorem hz2 : (![0, 0] : Fin 2 → ℕ) = fun _ => 0 := by
  funext a; match a with | ⟨0, _⟩ => rfl | ⟨1, _⟩ => rfl

/-- A store through the whole buffer covers it. -/
theorem coverA (L : List (View.Piece (Elt F) S32x1024 .f32)) (p0 : Vec F S32x1024 .f32) (y : S32x1024.Idx) :
    ∃ pc ∈ ((⟨rA, p0⟩ : View.Piece (Elt F) S32x1024 .f32) :: L), y ∈ pc.1.set :=
  ⟨_, List.mem_cons_self .., View.mem_set_unit_zero hz2 inb_S32x1024_S32x1024_0_0 y⟩

/-- What a load of the whole buffer reads after stores of the whole buffer: the last one's value. -/
theorem readBack {sg : RefSig} {κ : Kind} {sp : Space} (v : View sg κ sp S32x1024 .f32) (w : Vec F S32x1024 .f32)
    (L : List (View.Piece (Elt F) S32x1024 .f32)) :
    v.readCov ((⟨rA, w⟩ : View.Piece (Elt F) S32x1024 .f32) :: L) rA.toLoadRect = w := by
  rw [View.readCov_eq_canon_ld _ _ _ (coverA L w), View.canon_cons_unit_zero hz2, View.ld_unit_zero hz2]

/-- What the buffer holds after stores of the whole buffer: the last one's value. -/
theorem writeBack {sg : RefSig} {κ : Kind} {sp : Space} (v : View sg κ sp S32x1024 .f32) (f : v.ty.Contents (Elt F)) (w : Vec F S32x1024 .f32)
    (L : List (View.Piece (Elt F) S32x1024 .f32)) :
    v.read (Elt F) (v.writes (Elt F) f ((⟨rA, w⟩ : View.Piece (Elt F) S32x1024 .f32) :: L)) = w := by
  rw [View.read_writes_eq_canon _ _ _ (coverA L w), View.canon_cons_unit_zero hz2]

/-! ## The body's test for the first grid point -/

/-- The condition the body branches on, from the grid coordinate. -/
abbrev isFirst (i : grid1.Coords) : Prop := (Scalar.cmpi .ne (Scalar.extui (Scalar.cmpi .eq (BitVec.ofNat 32 (i 0).val) 0#32)) 0#32) = 1#1
/-- It holds at point 0 only. -/
theorem isFirst_iff : ∀ t : Fin cfg1.N, isFirst (grid1.coords t) ↔ t.val = 0 :=
  (by decide +kernel : ∀ t : Fin grid1.N, isFirst (grid1.coords t) ↔ t.val = 0)

/-! ## The body run -/

set_option maxHeartbeats 4000000 in
/-- At the first point: whatever the scratch and the result's buffer held, both end at the product of the two
    blocks added to zero. -/
theorem sound_kernel1_first (c : Dev nD) (E : Set ℕ) (i : grid1.Coords) (hc : isFirst i)
    (arg1 : Memref sig .tc .vmem S32x2048 .f32) (harg1 : arg1.IsWhole) (arg2 : Memref sig .tc .vmem S2048x1024 .f32) (harg2 : arg2.IsWhole)
    (arg3 : Memref sig .tc .vmem S32x1024 .f32) (harg3 : arg3.IsWhole) (arg4 : Memref sig .tc .vmem S32x1024 .f32) (harg4 : arg4.IsWhole)
    (x0 : Vec F S32x2048 .f32) (x1 : Vec F S2048x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay2 x0 x1 k1_pay1) ∗ owns (c : Thread nD τ) arg4 fullShare (k1_pay2 x0 x1 k1_pay1)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d3, %f3, -, H3⟩, ⟨%d4, %f4, -, H4⟩, Hk⟩
  subst hf0 hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    simp only [View.readAt_eq_ld, View.ld_unit_zero (S := S32x2048) hz2, View.ld_unit_zero (S := S2048x1024) hz2, View.ld_unit_zero (S := S32x1024) hz2]
    rw [writeBack, readBack, readBack]
  iexists _; isplitr
  swap; · iexact H4
  ipureintro
  sl_unfold_words
  simp only [View.readAt_eq_ld, View.ld_unit_zero (S := S32x2048) hz2, View.ld_unit_zero (S := S2048x1024) hz2, View.ld_unit_zero (S := S32x1024) hz2]
  rw [writeBack, readBack]

set_option maxHeartbeats 4000000 in
/-- At a later point: the scratch at s, both it and the result's buffer end at s plus the product of the two blocks. -/
theorem sound_kernel1_next (c : Dev nD) (E : Set ℕ) (i : grid1.Coords) (hc : ¬ isFirst i)
    (arg1 : Memref sig .tc .vmem S32x2048 .f32) (harg1 : arg1.IsWhole) (arg2 : Memref sig .tc .vmem S2048x1024 .f32) (harg2 : arg2.IsWhole)
    (arg3 : Memref sig .tc .vmem S32x1024 .f32) (harg3 : arg3.IsWhole) (arg4 : Memref sig .tc .vmem S32x1024 .f32) (harg4 : arg4.IsWhole)
    (x0 : Vec F S32x2048 .f32) (x1 : Vec F S2048x1024 .f32) (s : Vec F S32x1024 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare s
        ∗ (iprop(owns (c : Thread nD τ) arg1 fullShare x0 ∗ owns (c : Thread nD τ) arg2 fullShare x1
            ∗ owns (c : Thread nD τ) arg3 fullShare (k1_pay2 x0 x1 s) ∗ owns (c : Thread nD τ) arg4 fullShare (k1_pay2 x0 x1 s)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d3, %f3, -, H3⟩, ⟨%f4, %hf4, H4⟩, Hk⟩
  subst hf0 hf1 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    simp only [View.readAt_eq_ld, View.ld_unit_zero (S := S32x2048) hz2, View.ld_unit_zero (S := S2048x1024) hz2, View.ld_unit_zero (S := S32x1024) hz2]
    rw [writeBack, readBack]
  iexists _; isplitr
  swap; · iexact H4
  ipureintro
  sl_unfold_words
  simp only [View.readAt_eq_ld, View.ld_unit_zero (S := S32x2048) hz2, View.ld_unit_zero (S := S2048x1024) hz2, View.ld_unit_zero (S := S32x1024) hz2]
  rw [writeBack]

section
variable (V : (c : Dev nD) → (b : Ref sig .tc) → Buf (Elt F) ((c : Thread nD τ).loc b))

/-! ## The accumulator, point by point -/

/-- The accumulator after the body at point n: zero plus the first product, then each later product added. -/
def accAt (c : Dev nD) : (n : ℕ) → n < cfg1.N → Vec F S32x1024 .f32
  | 0, hn => k1_pay2 (iblk1 V c 0 ⟨0, hn⟩) (iblk1 V c 1 ⟨0, hn⟩) k1_pay1
  | n + 1, hn => k1_pay2 (iblk1 V c 0 ⟨n + 1, hn⟩) (iblk1 V c 1 ⟨n + 1, hn⟩) (accAt c n (Nat.lt_of_succ_lt hn))

theorem accAt_first (c : Dev nD) (t : Fin cfg1.N) (hz : t.val = 0) :
    accAt V c t.val t.isLt = k1_pay2 (iblk1 V c 0 t) (iblk1 V c 1 t) k1_pay1 := by
  obtain ⟨n, hn⟩ := t
  cases n with
  | zero => rfl
  | succ n => exact absurd hz (Nat.succ_ne_zero n)

theorem accAt_next (c : Dev nD) (t : Fin cfg1.N) (hz : t.val ≠ 0) :
    accAt V c t.val t.isLt = k1_pay2 (iblk1 V c 0 t) (iblk1 V c 1 t)
      (accAt V c (t.val - 1) (Nat.lt_of_le_of_lt (Nat.sub_le _ _) t.isLt)) := by
  obtain ⟨n, hn⟩ := t
  cases n with
  | zero => exact absurd rfl hz
  | succ n => rfl

/-! ## The region's invariant -/

/-- The kernel's scratch buffer, whole. -/
abbrev scM : Memref sig .tc .vmem S32x1024 .f32 := Memref.whole cc1_scratch0

/-- The core's scoped buffers that this region stages nothing through: the other region's staging buffers, each
    at some contents, and the scratch buffer in the state S. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

/-- Before the first point nothing is known of the scratch. -/
theorem PhiA1_eq (c : Dev nD) :
    (Pipeline.ΦA spec1 c : sProp 𝕄) = iprop(scoped1 c iprop(∃ d, owns (c : Thread nD τ) scM fullShare d) ∗ (∃ r, prngReg c r)) := by
  unfold Pipeline.ΦA scoped1; rw [scopedRest1_eq]; simp only [scM, owns_whole]; try rfl

/-- The invariant before position n: before the first point the scoped rest at anything; afterwards the scratch
    at the accumulator the point before left. -/
def PhiS (c : Dev nD) : (n : ℕ) → n ≤ cfg1.N → sProp 𝕄
  | 0, _ => Pipeline.ΦA spec1 c
  | n + 1, hn => iprop(scoped1 c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 c (owns (c : Thread nD τ) scM fullShare (accAt V c n hn)) ∗ (∃ r, prngReg c r)) := rfl

theorem PhiS_pos (c : Dev nD) (n : ℕ) (h : n ≤ cfg1.N) (hz : n ≠ 0) :
    PhiS V c n h = iprop(scoped1 c (owns (c : Thread nD τ) scM fullShare (accAt V c (n - 1) (by omega))) ∗ (∃ r, prngReg c r)) := by
  cases n with
  | zero => exact absurd rfl hz
  | succ n => rfl

/-! ## The region's proof data -/

/-- The arrays as the region finds them; after the body at point t each input's buffer at its block and the
    result's at the accumulator; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
/-- The body at any point: the invariant hands it the scratch (at anything before the first point, at the
    previous accumulator afterwards) and takes it back at this point's accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = PhiS V c (t.val + 1) t.isLt from rfl, PhiS_succ,
    after1_0, after1_1, after1_2, PhiS_castSucc V c t]
  by_cases hz : t.val = 0
  · rw [PhiS_zero V c _ _ hz, PhiA1_eq, accAt_first V c t hz]
    unfold scoped1
    iintro ⟨⟨⟨A0, A1, A2, A3, A4, A5, A6, HS⟩, Hg⟩, Ho, ⟨%d0, H0⟩, ⟨%d1, H1⟩, ⟨%d2, H2⟩⟩
    iapply (sound_kernel1_first c Set.univ (grid1.coords t) ((isFirst_iff t).mpr hz) _ _ _ _ _ _ _ _ (iblk1 V c 0 t) (iblk1 V c 1 t) _)
    isplitl [H0]; · iexact H0
    isplitl [H1]; · iexact H1
    isplitl [H2]; · iexists _; iexact H2
    isplitl [HS]; · iexact HS
    iintro ⟨H0, H1, H2, HS⟩
    isplitl [A0 A1 A2 A3 A4 A5 A6 HS Hg]
    · isplitr [Hg]
      swap; · iexact Hg
      isplitl [A0]; · iexact A0
      isplitl [A1]; · iexact A1
      isplitl [A2]; · iexact A2
      isplitl [A3]; · iexact A3
      isplitl [A4]; · iexact A4
      isplitl [A5]; · iexact A5
      isplitl [A6]; · iexact A6
      iexact HS
    isplitl [Ho]; · iexact Ho
    isplitl [H0]; · iexact H0
    isplitl [H1]; · iexact H1
    iexact H2
  · rw [PhiS_pos V c _ _ hz, accAt_next V c t hz]
    unfold scoped1
    iintro ⟨⟨⟨A0, A1, A2, A3, A4, A5, A6, HS⟩, Hg⟩, Ho, ⟨%d0, H0⟩, ⟨%d1, H1⟩, ⟨%d2, H2⟩⟩
    iapply (sound_kernel1_next c Set.univ (grid1.coords t) (fun h => hz ((isFirst_iff t).mp h)) _ _ _ _ _ _ _ _ (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [A0 A1 A2 A3 A4 A5 A6 HS Hg]
    · isplitr [Hg]
      swap; · iexact Hg
      isplitl [A0]; · iexact A0
      isplitl [A1]; · iexact A1
      isplitl [A2]; · iexact A2
      isplitl [A3]; · iexact A3
      isplitl [A4]; · iexact A4
      isplitl [A5]; · iexact A5
      isplitl [A6]; · iexact A6
      iexact HS
    isplitl [Ho]; · iexact Ho
    isplitl [H0]; · iexact H0
    isplitl [H1]; · iexact H1
    iexact H2

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the scoped rest back, the scratch's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA1_eq]
  unfold scoped1
  iintro ⟨⟨A0, A1, A2, A3, A4, A5, A6, HS⟩, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  iexists _; iexact HS

end

end Cert.Kernel.Hand

end
-- ==== Proof.Kernel.Run.lean ====
/-
  The whole program as a run of four items: the bias laid out as a row, the first kernel region, its result
  flattened to 32 × 32768, the second kernel region.  The contents of the core's unscoped buffers are followed
  from the launch memory through the four items; each argument array is read back through them to its launch
  contents; each region is entered from, and left at, "every unscoped buffer at the contents followed so far";
  and every weakly fair execution ends with every unscoped buffer at the last of those contents.
-/
import proofs.«162594_j65197603553867_1_alg».proof.Proof.Gen.Kernel.Launch
import proofs.«162594_j65197603553867_1_alg».proof.Proof.Gen.Kernel.Skeleton
import proofs.«162594_j65197603553867_1_alg».proof.Proof.Gen.Kernel.Points
import proofs.«162594_j65197603553867_1_alg».proof.Proof.Kernel.Netvlad
import proofs.«162594_j65197603553867_1_alg».proof.Proof.Kernel.Project
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between items -/

/-- Core c's buffers at launch. -/
abbrev W0 : Dev nD → Valuation τ sig (Elt F) := fun c b => (s₀ m ρ).mem ((c : Dev nD), b)
/-- After the bias is laid out as a row. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what its write-backs leave, every other buffer as it was. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the table is flattened. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## Each argument ends as launched: no host operation writes one, and a region only reads it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The result array ends at what the second region's write-back leaves. -/
theorem W4_main_v3 (c : Dev nD) : W4 m ρ c (Proc.devRef .tc main_v3) = (dat1 (V3 m ρ) c).arrAt 2 cfg1.N :=
  W4_arr m ρ c 2

/-! ## The proof data of both regions and the state carried between items -/

abbrev adm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
/-- The first region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
  hbody c := (body_obligation0 (V1 m ρ) c).loose
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr

set_option backward.isDefEq.respectTransparency.types false in
/-- The second region: entered from every unscoped buffer at `W3`, left at `W4`; its invariant starts as the
    scoped rest at anything and gives the scoped rest back after the last point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO
  hbody c := (body_obligation1 (V3 m ρ) c).loose
  hin c := by
    rw [show (pdats m ρ 1 c).Φ 0 = (dat1 (V3 m ρ) c).Φ 0 from rfl]
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr

/-! ## The program as its four items, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting,
    and every final memory holds each unscoped buffer at the contents followed through the four items. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The same run read at the result and at the five arguments. -/
theorem run_result : θ_run defs (onTc (τ := τ) (main (F := F))) ⟨m, fun _ => 0, ρ⟩ (fun r => ∀ c : Dev nD,
      r.2.mem ((c.tc : Thread nD τ).loc main_v3) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3 (by decide))).trans (W4_main_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_result m ρ)

end Cert.Kernel.Hand

end
-- ==== Proof.KernelIdeal.Netvlad.lean ====
/-
  The first kernel region: one grid point per batch element.  At point t the body reads that element's
  1024 × 512 descriptors (window 0, block t), the 512 × 64 weights, the bias row and the 64 × 512 centres
  (windows 1 to 3, one block each, the same at every point) and stores one whole 1 × 64 × 512 block of the
  result (window 4, block t).  Here: what each input's staging buffer holds when the body starts, what the
  output's holds when it ends, and that the body run from that state ends in this one, for any contents V
  of the arrays at the region's entry and at any float instance.
-/
import proofs.«162594_j65197603553867_1_alg».proof.Proof.Gen.KernelIdeal.Launch
import proofs.«162594_j65197603553867_1_alg».proof.Proof.Gen.KernelIdeal.Skeleton
import proofs.«162594_j65197603553867_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    at this point or the block index has not moved since it did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each the whole of its buffer -/

abbrev rX : Rect S1x1024x512 := Rect.unit (s := S1x1024x512) ![0, 0, 0] S1x1024x512.size inb_S1x1024x512_S1x1024x512_0_0_0
abbrev rW : Rect S512x64 := Rect.unit (s := S512x64) ![0, 0] S512x64.size inb_S512x64_S512x64_0_0
abbrev rB : Rect S1x64 := Rect.unit (s := S1x64) ![0, 0] S1x64.size inb_S1x64_S1x64_0_0
abbrev rC : Rect S64x512 := Rect.unit (s := S64x512) ![0, 0] S64x512.size inb_S64x512_S64x512_0_0
abbrev rO : Rect S1x64x512 := Rect.unit (s := S1x64x512) ![0, 0, 0] S1x64x512.size inb_S1x64x512_S1x64x512_0_0_0

/-- What the body leaves in the output's staging buffer, from the four input blocks: its one store, of the
    doubly normalised residual table of the loaded descriptors. -/
def out0_4 (x0 : Vec F S1x1024x512 .f32) (x1 : Vec F S512x64 .f32) (x2 : Vec F S1x64 .f32) (x3 : Vec F S64x512 .f32) : Vec F S1x64x512 .f32 :=
  View.canon [⟨rO, k0_pay1 (k0_pay2 (View.ld x0 rX) (View.ld x1 rW) (View.ld x2 rB) (View.ld x3 rC))
    (k0_pay3 (View.ld x0 rX) (View.ld x1 rW) (View.ld x2 rB) (View.ld x3 rC))⟩]

/-- The one store covers the buffer. -/
theorem cover0_4 (p0 : Vec F S1x64x512 .f32) (y : S1x64x512.Idx) :
    ∃ pc ∈ ([⟨rO, p0⟩] : List (View.Piece (Elt F) S1x64x512 .f32)), y ∈ pc.1.set :=
  View.cover_of_tiled [⟨rO, p0⟩] S1x64x512.size (by rfl) y

set_option maxHeartbeats 4000000 in
/-- The body on whole staging buffers, the inputs' at given contents and the output's at anything, runs to a
    state with the inputs' as they were and the output's at `out0_4` of them. -/
theorem sound_kernel0 (c : Dev nD) (E : Set ℕ) (i : grid0.Coords)
    (arg1 : Memref sig .tc .vmem S1x1024x512 .f32) (harg1 : arg1.IsWhole) (arg2 : Memref sig .tc .vmem S512x64 .f32) (harg2 : arg2.IsWhole)
    (arg3 : Memref sig .tc .vmem S1x64 .f32) (harg3 : arg3.IsWhole) (arg4 : Memref sig .tc .vmem S64x512 .f32) (harg4 : arg4.IsWhole)
    (arg5 : Memref sig .tc .vmem S1x64x512 .f32) (harg5 : arg5.IsWhole)
    (x0 : Vec F S1x1024x512 .f32) (x1 : Vec F S512x64 .f32) (x2 : Vec F S1x64 .f32) (x3 : Vec F S64x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__netvlad_kernel i arg1 harg1 arg2 harg2 arg3 harg3 arg4 harg4 arg5 harg5) K := by
  simp only [cc0__netvlad_kernel_eq_skeleton]; unfold cc0__netvlad_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The region's proof data -/

/-- The arrays as the region finds them; after the body at point t each input's buffer at its block and the
    output's at `out0_4` of the four blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KernelIdeal.Project.lean ====
/-
  The second kernel region: sixteen grid points, one per run of 2048 columns of the flattened table.  At
  point t the body reads block t of the flattened 32 × 32768 table (window 0) and block t of the
  32768 × 1024 matrix (window 1), adds their product to an accumulator it keeps in a scratch buffer of its own
  (set to zero first at point 0), and copies the accumulator into the staging buffer of the 32 × 1024 result
  (window 2, one block, written back after the last point).  Here: the accumulator after each point as a
  recursion over the points; the region's invariant, which carries the scratch buffer at that value beside the
  scoped buffers this region does not use; and that the body run at a point takes the one to the next.
-/
import proofs.«162594_j65197603553867_1_alg».proof.Proof.Gen.KernelIdeal.Launch
import proofs.«162594_j65197603553867_1_alg».proof.Proof.Gen.KernelIdeal.Skeleton
import proofs.«162594_j65197603553867_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The rectangles the body reads and writes: each the whole of its buffer -/

abbrev rF : Rect S32x2048 := Rect.unit (s := S32x2048) ![0, 0] S32x2048.size inb_S32x2048_S32x2048_0_0
abbrev rR : Rect S2048x1024 := Rect.unit (s := S2048x1024) ![0, 0] S2048x1024.size inb_S2048x1024_S2048x1024_0_0
abbrev rA : Rect S32x1024 := Rect.unit (s := S32x1024) ![0, 0] S32x1024.size inb_S32x1024_S32x1024_0_0

theorem hz2 : (![0, 0] : Fin 2 → ℕ) = fun _ => 0 := by
  funext a; match a with | ⟨0, _⟩ => rfl | ⟨1, _⟩ => rfl

/-- A store through the whole buffer covers it. -/
theorem coverA (L : List (View.Piece (Elt F) S32x1024 .f32)) (p0 : Vec F S32x1024 .f32) (y : S32x1024.Idx) :
    ∃ pc ∈ ((⟨rA, p0⟩ : View.Piece (Elt F) S32x1024 .f32) :: L), y ∈ pc.1.set :=
  ⟨_, List.mem_cons_self .., View.mem_set_unit_zero hz2 inb_S32x1024_S32x1024_0_0 y⟩

/-- What a load of the whole buffer reads after stores of the whole buffer: the last one's value. -/
theorem readBack {sg : RefSig} {κ : Kind} {sp : Space} (v : View sg κ sp S32x1024 .f32) (w : Vec F S32x1024 .f32)
    (L : List (View.Piece (Elt F) S32x1024 .f32)) :
    v.readCov ((⟨rA, w⟩ : View.Piece (Elt F) S32x1024 .f32) :: L) rA.toLoadRect = w := by
  rw [View.readCov_eq_canon_ld _ _ _ (coverA L w), View.canon_cons_unit_zero hz2, View.ld_unit_zero hz2]

/-- What the buffer holds after stores of the whole buffer: the last one's value. -/
theorem writeBack {sg : RefSig} {κ : Kind} {sp : Space} (v : View sg κ sp S32x1024 .f32) (f : v.ty.Contents (Elt F)) (w : Vec F S32x1024 .f32)
    (L : List (View.Piece (Elt F) S32x1024 .f32)) :
    v.read (Elt F) (v.writes (Elt F) f ((⟨rA, w⟩ : View.Piece (Elt F) S32x1024 .f32) :: L)) = w := by
  rw [View.read_writes_eq_canon _ _ _ (coverA L w), View.canon_cons_unit_zero hz2]

/-! ## The body's test for the first grid point -/

/-- The condition the body branches on, from the grid coordinate. -/
abbrev isFirst (i : grid1.Coords) : Prop := (Scalar.cmpi .ne (Scalar.extui (Scalar.cmpi .eq (BitVec.ofNat 32 (i 0).val) 0#32)) 0#32) = 1#1
/-- It holds at point 0 only. -/
theorem isFirst_iff : ∀ t : Fin cfg1.N, isFirst (grid1.coords t) ↔ t.val = 0 :=
  (by decide +kernel : ∀ t : Fin grid1.N, isFirst (grid1.coords t) ↔ t.val = 0)

/-! ## The body run -/

set_option maxHeartbeats 4000000 in
/-- At the first point: whatever the scratch and the result's buffer held, both end at the product of the two
    blocks added to zero. -/
theorem sound_kernel1_first (c : Dev nD) (E : Set ℕ) (i : grid1.Coords) (hc : isFirst i)
    (arg1 : Memref sig .tc .vmem S32x2048 .f32) (harg1 : arg1.IsWhole) (arg2 : Memref sig .tc .vmem S2048x1024 .f32) (harg2 : arg2.IsWhole)
    (arg3 : Memref sig .tc .vmem S32x1024 .f32) (harg3 : arg3.IsWhole) (arg4 : Memref sig .tc .vmem S32x1024 .f32) (harg4 : arg4.IsWhole)
    (x0 : Vec F S32x2048 .f32) (x1 : Vec F S2048x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay2 x0 x1 k1_pay1) ∗ owns (c : Thread nD τ) arg4 fullShare (k1_pay2 x0 x1 k1_pay1)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d3, %f3, -, H3⟩, ⟨%d4, %f4, -, H4⟩, Hk⟩
  subst hf0 hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    simp only [View.readAt_eq_ld, View.ld_unit_zero (S := S32x2048) hz2, View.ld_unit_zero (S := S2048x1024) hz2, View.ld_unit_zero (S := S32x1024) hz2]
    rw [writeBack, readBack, readBack]
  iexists _; isplitr
  swap; · iexact H4
  ipureintro
  sl_unfold_words
  simp only [View.readAt_eq_ld, View.ld_unit_zero (S := S32x2048) hz2, View.ld_unit_zero (S := S2048x1024) hz2, View.ld_unit_zero (S := S32x1024) hz2]
  rw [writeBack, readBack]

set_option maxHeartbeats 4000000 in
/-- At a later point: the scratch at s, both it and the result's buffer end at s plus the product of the two blocks. -/
theorem sound_kernel1_next (c : Dev nD) (E : Set ℕ) (i : grid1.Coords) (hc : ¬ isFirst i)
    (arg1 : Memref sig .tc .vmem S32x2048 .f32) (harg1 : arg1.IsWhole) (arg2 : Memref sig .tc .vmem S2048x1024 .f32) (harg2 : arg2.IsWhole)
    (arg3 : Memref sig .tc .vmem S32x1024 .f32) (harg3 : arg3.IsWhole) (arg4 : Memref sig .tc .vmem S32x1024 .f32) (harg4 : arg4.IsWhole)
    (x0 : Vec F S32x2048 .f32) (x1 : Vec F S2048x1024 .f32) (s : Vec F S32x1024 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare s
        ∗ (iprop(owns (c : Thread nD τ) arg1 fullShare x0 ∗ owns (c : Thread nD τ) arg2 fullShare x1
            ∗ owns (c : Thread nD τ) arg3 fullShare (k1_pay2 x0 x1 s) ∗ owns (c : Thread nD τ) arg4 fullShare (k1_pay2 x0 x1 s)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d3, %f3, -, H3⟩, ⟨%f4, %hf4, H4⟩, Hk⟩
  subst hf0 hf1 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    simp only [View.readAt_eq_ld, View.ld_unit_zero (S := S32x2048) hz2, View.ld_unit_zero (S := S2048x1024) hz2, View.ld_unit_zero (S := S32x1024) hz2]
    rw [writeBack, readBack]
  iexists _; isplitr
  swap; · iexact H4
  ipureintro
  sl_unfold_words
  simp only [View.readAt_eq_ld, View.ld_unit_zero (S := S32x2048) hz2, View.ld_unit_zero (S := S2048x1024) hz2, View.ld_unit_zero (S := S32x1024) hz2]
  rw [writeBack]

section
variable (V : (c : Dev nD) → (b : Ref sig .tc) → Buf (Elt F) ((c : Thread nD τ).loc b))

/-! ## The accumulator, point by point -/

/-- The accumulator after the body at point n: zero plus the first product, then each later product added. -/
def accAt (c : Dev nD) : (n : ℕ) → n < cfg1.N → Vec F S32x1024 .f32
  | 0, hn => k1_pay2 (iblk1 V c 0 ⟨0, hn⟩) (iblk1 V c 1 ⟨0, hn⟩) k1_pay1
  | n + 1, hn => k1_pay2 (iblk1 V c 0 ⟨n + 1, hn⟩) (iblk1 V c 1 ⟨n + 1, hn⟩) (accAt c n (Nat.lt_of_succ_lt hn))

theorem accAt_first (c : Dev nD) (t : Fin cfg1.N) (hz : t.val = 0) :
    accAt V c t.val t.isLt = k1_pay2 (iblk1 V c 0 t) (iblk1 V c 1 t) k1_pay1 := by
  obtain ⟨n, hn⟩ := t
  cases n with
  | zero => rfl
  | succ n => exact absurd hz (Nat.succ_ne_zero n)

theorem accAt_next (c : Dev nD) (t : Fin cfg1.N) (hz : t.val ≠ 0) :
    accAt V c t.val t.isLt = k1_pay2 (iblk1 V c 0 t) (iblk1 V c 1 t)
      (accAt V c (t.val - 1) (Nat.lt_of_le_of_lt (Nat.sub_le _ _) t.isLt)) := by
  obtain ⟨n, hn⟩ := t
  cases n with
  | zero => exact absurd rfl hz
  | succ n => rfl

/-! ## The region's invariant -/

/-- The kernel's scratch buffer, whole. -/
abbrev scM : Memref sig .tc .vmem S32x1024 .f32 := Memref.whole cc1_scratch0

/-- The core's scoped buffers that this region stages nothing through: the other region's staging buffers, each
    at some contents, and the scratch buffer in the state S. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

/-- Before the first point nothing is known of the scratch. -/
theorem PhiA1_eq (c : Dev nD) :
    (Pipeline.ΦA spec1 c : sProp 𝕄) = iprop(scoped1 c iprop(∃ d, owns (c : Thread nD τ) scM fullShare d) ∗ (∃ r, prngReg c r)) := by
  unfold Pipeline.ΦA scoped1; rw [scopedRest1_eq]; simp only [scM, owns_whole]; try rfl

/-- The invariant before position n: before the first point the scoped rest at anything; afterwards the scratch
    at the accumulator the point before left. -/
def PhiS (c : Dev nD) : (n : ℕ) → n ≤ cfg1.N → sProp 𝕄
  | 0, _ => Pipeline.ΦA spec1 c
  | n + 1, hn => iprop(scoped1 c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 c (owns (c : Thread nD τ) scM fullShare (accAt V c n hn)) ∗ (∃ r, prngReg c r)) := rfl

theorem PhiS_pos (c : Dev nD) (n : ℕ) (h : n ≤ cfg1.N) (hz : n ≠ 0) :
    PhiS V c n h = iprop(scoped1 c (owns (c : Thread nD τ) scM fullShare (accAt V c (n - 1) (by omega))) ∗ (∃ r, prngReg c r)) := by
  cases n with
  | zero => exact absurd rfl hz
  | succ n => rfl

/-! ## The region's proof data -/

/-- The arrays as the region finds them; after the body at point t each input's buffer at its block and the
    result's at the accumulator; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
/-- The body at any point: the invariant hands it the scratch (at anything before the first point, at the
    previous accumulator afterwards) and takes it back at this point's accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = PhiS V c (t.val + 1) t.isLt from rfl, PhiS_succ,
    after1_0, after1_1, after1_2, PhiS_castSucc V c t]
  by_cases hz : t.val = 0
  · rw [PhiS_zero V c _ _ hz, PhiA1_eq, accAt_first V c t hz]
    unfold scoped1
    iintro ⟨⟨⟨A0, A1, A2, A3, A4, A5, A6, HS⟩, Hg⟩, Ho, ⟨%d0, H0⟩, ⟨%d1, H1⟩, ⟨%d2, H2⟩⟩
    iapply (sound_kernel1_first c Set.univ (grid1.coords t) ((isFirst_iff t).mpr hz) _ _ _ _ _ _ _ _ (iblk1 V c 0 t) (iblk1 V c 1 t) _)
    isplitl [H0]; · iexact H0
    isplitl [H1]; · iexact H1
    isplitl [H2]; · iexists _; iexact H2
    isplitl [HS]; · iexact HS
    iintro ⟨H0, H1, H2, HS⟩
    isplitl [A0 A1 A2 A3 A4 A5 A6 HS Hg]
    · isplitr [Hg]
      swap; · iexact Hg
      isplitl [A0]; · iexact A0
      isplitl [A1]; · iexact A1
      isplitl [A2]; · iexact A2
      isplitl [A3]; · iexact A3
      isplitl [A4]; · iexact A4
      isplitl [A5]; · iexact A5
      isplitl [A6]; · iexact A6
      iexact HS
    isplitl [Ho]; · iexact Ho
    isplitl [H0]; · iexact H0
    isplitl [H1]; · iexact H1
    iexact H2
  · rw [PhiS_pos V c _ _ hz, accAt_next V c t hz]
    unfold scoped1
    iintro ⟨⟨⟨A0, A1, A2, A3, A4, A5, A6, HS⟩, Hg⟩, Ho, ⟨%d0, H0⟩, ⟨%d1, H1⟩, ⟨%d2, H2⟩⟩
    iapply (sound_kernel1_next c Set.univ (grid1.coords t) (fun h => hz ((isFirst_iff t).mp h)) _ _ _ _ _ _ _ _ (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [A0 A1 A2 A3 A4 A5 A6 HS Hg]
    · isplitr [Hg]
      swap; · iexact Hg
      isplitl [A0]; · iexact A0
      isplitl [A1]; · iexact A1
      isplitl [A2]; · iexact A2
      isplitl [A3]; · iexact A3
      isplitl [A4]; · iexact A4
      isplitl [A5]; · iexact A5
      isplitl [A6]; · iexact A6
      iexact HS
    isplitl [Ho]; · iexact Ho
    isplitl [H0]; · iexact H0
    isplitl [H1]; · iexact H1
    iexact H2

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the scoped rest back, the scratch's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA1_eq]
  unfold scoped1
  iintro ⟨⟨A0, A1, A2, A3, A4, A5, A6, HS⟩, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  iexists _; iexact HS

end

end Cert.KernelIdeal.Hand

end
-- ==== Proof.KernelIdeal.Run.lean ====
/-
  The whole program as a run of four items: the bias laid out as a row, the first kernel region, its result
  flattened to 32 × 32768, the second kernel region.  The contents of the core's unscoped buffers are followed
  from the launch memory through the four items; each argument array is read back through them to its launch
  contents; each region is entered from, and left at, "every unscoped buffer at the contents followed so far";
  and every weakly fair execution ends with every unscoped buffer at the last of those contents.
-/
import proofs.«162594_j65197603553867_1_alg».proof.Proof.Gen.KernelIdeal.Launch
import proofs.«162594_j65197603553867_1_alg».proof.Proof.Gen.KernelIdeal.Skeleton
import proofs.«162594_j65197603553867_1_alg».proof.Proof.Gen.KernelIdeal.Points
import proofs.«162594_j65197603553867_1_alg».proof.Proof.KernelIdeal.Netvlad
import proofs.«162594_j65197603553867_1_alg».proof.Proof.KernelIdeal.Project
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between items -/

/-- Core c's buffers at launch. -/
abbrev W0 : Dev nD → Valuation τ sig (Elt F) := fun c b => (s₀ m ρ).mem ((c : Dev nD), b)
/-- After the bias is laid out as a row. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what its write-backs leave, every other buffer as it was. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the table is flattened. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## Each argument ends as launched: no host operation writes one, and a region only reads it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The result array ends at what the second region's write-back leaves. -/
theorem W4_main_v3 (c : Dev nD) : W4 m ρ c (Proc.devRef .tc main_v3) = (dat1 (V3 m ρ) c).arrAt 2 cfg1.N :=
  W4_arr m ρ c 2

/-! ## The proof data of both regions and the state carried between items -/

abbrev adm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
/-- The first region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
  hbody c := (body_obligation0 (V1 m ρ) c).loose
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr

set_option backward.isDefEq.respectTransparency.types false in
/-- The second region: entered from every unscoped buffer at `W3`, left at `W4`; its invariant starts as the
    scoped rest at anything and gives the scoped rest back after the last point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO
  hbody c := (body_obligation1 (V3 m ρ) c).loose
  hin c := by
    rw [show (pdats m ρ 1 c).Φ 0 = (dat1 (V3 m ρ) c).Φ 0 from rfl]
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr

/-! ## The program as its four items, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting,
    and every final memory holds each unscoped buffer at the contents followed through the four items. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The same run read at the result and at the five arguments. -/
theorem run_result : θ_run defs (onTc (τ := τ) (main (F := F))) ⟨m, fun _ => 0, ρ⟩ (fun r => ∀ c : Dev nD,
      r.2.mem ((c.tc : Thread nD τ).loc main_v3) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3 (by decide))).trans (W4_main_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_result m ρ)

end Cert.KernelIdeal.Hand

end
-- ==== Proof.Spec.lean ====
/-
  The mathematics both programs compute, written once over plain index types.

  One batch element: descriptors x (1024 × 512), a soft assignment of each descriptor to 64 centres
  (a softmax over the centres of x·w + b), the residual of the assigned descriptors against each
  centre, each centre's residual scaled to unit length, then the whole 64 × 512 table scaled to unit
  length.  The result of the program is that table, flattened row by row, times a 32768 × 1024
  matrix.  Every sum is a finite sum of extended reals; nothing here rounds.
-/
import Idealize.ShloMosaic.PureOps.Ideal

noncomputable section

namespace Cert.Spec

open Idealize.ShloMosaic

/-- The floor under a squared length before its inverse square root is taken. -/
abbrev eps : EReal := Ideal.ofBits .f32 0x2B8CBCCC#32
/-- The value a running maximum starts from. -/
abbrev negInf : EReal := Ideal.ofBits .f32 0xFF800000#32

/-- Descriptor t scored against centre k. -/
def logit (x : Fin 1024 → Fin 512 → EReal) (w : Fin 512 → Fin 64 → EReal) (b : Fin 64 → EReal)
    (t : Fin 1024) (k : Fin 64) : EReal :=
  (∑ d : Fin 512, x t d * w d k) + b k

/-- The largest of a row of 64 scores. -/
def rowMax (v : Fin 64 → EReal) : EReal :=
  max negInf ((Finset.univ : Finset (Fin 64)).fold max negInf v)

/-- The softmax of a row of 64 scores, shifted by its maximum. -/
def soft (v : Fin 64 → EReal) (k : Fin 64) : EReal :=
  Ideal.div (Ideal.exp (v k - rowMax v)) (∑ k' : Fin 64, Ideal.exp (v k' - rowMax v))

/-- How much of descriptor t is assigned to centre k. -/
def assign (x : Fin 1024 → Fin 512 → EReal) (w : Fin 512 → Fin 64 → EReal) (b : Fin 64 → EReal)
    (t : Fin 1024) (k : Fin 64) : EReal :=
  soft (logit x w b t) k

/-- The assigned descriptors summed, less the centre weighted by the total assignment. -/
def residual (x : Fin 1024 → Fin 512 → EReal) (w : Fin 512 → Fin 64 → EReal) (b : Fin 64 → EReal)
    (c : Fin 64 → Fin 512 → EReal) (k : Fin 64) (d : Fin 512) : EReal :=
  (∑ t : Fin 1024, assign x w b t k * x t d) - (∑ t : Fin 1024, assign x w b t k) * c k d

/-- Each centre's residual scaled by the inverse root of its squared length. -/
def intra (x : Fin 1024 → Fin 512 → EReal) (w : Fin 512 → Fin 64 → EReal) (b : Fin 64 → EReal)
    (c : Fin 64 → Fin 512 → EReal) (k : Fin 64) (d : Fin 512) : EReal :=
  residual x w b c k d
    * Ideal.rsqrt (max (∑ d' : Fin 512, residual x w b c k d' * residual x w b c k d') eps)

/-- The whole table scaled by the inverse root of its squared length. -/
def vlad (x : Fin 1024 → Fin 512 → EReal) (w : Fin 512 → Fin 64 → EReal) (b : Fin 64 → EReal)
    (c : Fin 64 → Fin 512 → EReal) (k : Fin 64) (d : Fin 512) : EReal :=
  intra x w b c k d
    * Ideal.rsqrt (max (∑ k' : Fin 64, ∑ d' : Fin 512, intra x w b c k' d' * intra x w b c k' d') eps)

/-- A 64 × 512 table read row by row as one vector of 32768 entries. -/
def flat (v : Fin 64 → Fin 512 → EReal) (J : Fin 32768) : EReal :=
  v ⟨J.val / 512, by omega⟩ ⟨J.val % 512, Nat.mod_lt _ (by decide)⟩

/-- The program's result at batch element p and output column o. -/
def out (x : Fin 32 → Fin 1024 → Fin 512 → EReal) (w : Fin 512 → Fin 64 → EReal) (b : Fin 64 → EReal)
    (c : Fin 64 → Fin 512 → EReal) (r : Fin 32768 → Fin 1024 → EReal) (p : Fin 32) (o : Fin 1024) : EReal :=
  ∑ J : Fin 32768, flat (vlad (x p) w b c) J * r J o

end Cert.Spec

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.RefValue.lean ====
import proofs.«162594_j65197603553867_1_alg».proof.Defs
import proofs.«162594_j65197603553867_1_alg».proof.Proof.Gen.ReferenceIdeal.Run
import proofs.«162594_j65197603553867_1_alg».proof.Proof.Gen.ReferenceIdeal.Read
import proofs.«162594_j65197603553867_1_alg».proof.Proof.Spec
import proofs.«162594_j65197603553867_1_alg».proof.Proof.LibSumSplit
import Idealize.ShloMosaic.Lib.ValueIdx
import Idealize.ShloMosaic.Lib.ValueLayout
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Gen Cert.ReferenceIdeal.Read

section Stages

variable (x0 : (⟨S32x1024x512, .f32⟩ : BufTy).Contents (Elt Ideal)) (x1 : (⟨S512x64, .f32⟩ : BufTy).Contents (Elt Ideal))
    (x2 : (⟨S64, .f32⟩ : BufTy).Contents (Elt Ideal)) (x3 : (⟨S64x512, .f32⟩ : BufTy).Contents (Elt Ideal))
    (x4 : (⟨S32768x1024, .f32⟩ : BufTy).Contents (Elt Ideal))

/-- Batch element p's descriptors, read by coordinates. -/
abbrev xs (p : Fin 32) : Fin 1024 → Fin 512 → EReal := fun t d => x0 (ix3 p t d)
/-- The scoring weights, read by coordinates. -/
abbrev ws : Fin 512 → Fin 64 → EReal := fun d k => x1 (ix2 d k)
/-- The scoring bias, read by coordinates. -/
abbrev bs : Fin 64 → EReal := fun k => x2 (ix1 k)
/-- The centres, read by coordinates. -/
abbrev cs : Fin 64 → Fin 512 → EReal := fun k d => x3 (ix2 k d)

/-! ### The scores -/

theorem lidx0 (p : Fin 32) (t : Fin 1024) (k : Fin 64) (d : Fin 512) :
    lidx_main_v0 (ix3 p t k) d = ix3 p t d :=
  funext fun a => Fin.ext (by match a with | ⟨0, _⟩ => rfl | ⟨1, _⟩ => rfl | ⟨2, _⟩ => rfl)

theorem ridx0 (p : Fin 32) (t : Fin 1024) (k : Fin 64) (d : Fin 512) :
    ridx_main_v0 (ix3 p t k) d = ix2 d k :=
  funext fun a => Fin.ext (by match a with | ⟨0, _⟩ => rfl | ⟨1, _⟩ => rfl)

theorem idx12 (p : Fin 32) (t : Fin 1024) (k : Fin 64) :
    idx_main_v1 (idx_main_v2 (ix3 p t k)) = ix1 k :=
  funext fun a => Fin.ext (by match a with | ⟨0, _⟩ => rfl)

/-- Stage 3 at (p, t, k) is descriptor t of batch element p scored against centre k. -/
theorem v3_at (p : Fin 32) (t : Fin 1024) (k : Fin 64) :
    val_main_v3 x0 x1 x2 (ix3 p t k) = Spec.logit (xs x0 p) (ws x1) (bs x2) t k := by
  rw [val_main_v3_apply, val_main_v0_apply, val_main_v2_apply, val_main_v1_apply, Ideal.addf_def, idx12]
  unfold Spec.logit
  refine congrArg (· + x2 (ix1 k)) (Finset.sum_congr rfl fun d _ => ?_)
  rw [lidx0, ridx0]

/-! ### The row maximum -/

theorem lift4 (h : Shape.Reduces S32x1024x64 [2] S32x1024) (p : Fin 32) (t : Fin 1024) (k : Fin 64) :
    h.lift (ix2 p t) k = ix3 p t k :=
  funext fun a => Fin.ext (by match a with | ⟨0, _⟩ => rfl | ⟨1, _⟩ => rfl | ⟨2, _⟩ => rfl)

/-- A maximum taken along the last axis of a 32 × 1024 × 64 array from the starting value, at (p, t), is the
    running maximum of the 64 entries (p, t, ·). -/
theorem rowFold (y : FVec Ideal S32x1024x64 .f32) (p : Fin 32) (t : Fin 1024) :
    Host.reduce (FloatOps.maximumf (F := Ideal) (φ := .f32)) y (val_main_cst (F := Ideal)) reducesTo_S32x1024x64_S32x1024_d2 h_S_ (ix2 p t)
      = (Finset.univ : Finset (Fin 64)).fold max Spec.negInf (fun k => y (ix3 p t k)) := by
  have hR : Shape.Reduces S32x1024x64 [2] S32x1024 := by decide
  have e := Host.reduce_eq_fold_single (FloatOps.maximumf (F := Ideal) (φ := .f32)) y (val_main_cst (F := Ideal)) reducesTo_S32x1024x64_S32x1024_d2 hR h_S_ (ix2 p t)
  refine e.trans ?_
  refine congrArg (fun f => Finset.fold max Spec.negInf f (Finset.univ : Finset (Fin 64))) ?_
  exact funext fun (k : Fin 64) => congrArg y (lift4 hR p t k)

/-- Stage 4 at (p, t) is the running maximum of descriptor t's scores from the starting value. -/
theorem v4_at (p : Fin 32) (t : Fin 1024) :
    val_main_v4 x0 x1 x2 (ix2 p t)
      = (Finset.univ : Finset (Fin 64)).fold max Spec.negInf (Spec.logit (xs x0 p) (ws x1) (bs x2) t) := by
  unfold val_main_v4
  refine (rowFold (val_main_v3 x0 x1 x2) p t).trans ?_
  refine congrArg (fun f => Finset.fold max Spec.negInf f (Finset.univ : Finset (Fin 64))) ?_
  exact funext fun k => v3_at x0 x1 x2 p t k
theorem idx78 (p : Fin 32) (t : Fin 1024) (k : Fin 64) :
    idx_main_v7 (idx_main_v8 (ix3 p t k)) = ix2 p t :=
  funext fun a => Fin.ext (by match a with | ⟨0, _⟩ => rfl | ⟨1, _⟩ => rfl)

/-- Stage 6 at (p, t) is the largest of descriptor t's scores. -/
theorem v6_at (p : Fin 32) (t : Fin 1024) :
    val_main_v6 x0 x1 x2 (ix2 p t) = Spec.rowMax (Spec.logit (xs x0 p) (ws x1) (bs x2) t) := by
  rw [val_main_v6_apply, val_main_v5_apply, val_main_cst_0_apply, v4_at, Ideal.maximumf_def, Ideal.ofBits_def]
  rfl

/-- Stage 10 at (p, t, k) is the exponential of the score less the row's maximum. -/
theorem v10_at (p : Fin 32) (t : Fin 1024) (k : Fin 64) :
    val_main_v10 x0 x1 x2 (ix3 p t k)
      = Ideal.exp (Spec.logit (xs x0 p) (ws x1) (bs x2) t k - Spec.rowMax (Spec.logit (xs x0 p) (ws x1) (bs x2) t)) := by
  rw [val_main_v10_apply, val_main_v9_apply, val_main_v8_apply, val_main_v7_apply, idx78, v6_at, v3_at,
    Ideal.hostUnary_exp_def, Ideal.subf_def]

theorem idx1213 (p : Fin 32) (t : Fin 1024) (k : Fin 64) :
    idx_main_v12 (idx_main_v13 (ix3 p t k)) = ix2 p t :=
  funext fun a => Fin.ext (by match a with | ⟨0, _⟩ => rfl | ⟨1, _⟩ => rfl)

theorem idx11 (p : Fin 32) (t : Fin 1024) (k : Fin 64) :
    idx_main_v11 (ix2 p t) k = ix3 p t k :=
  funext fun a => Fin.ext (by match a with | ⟨0, _⟩ => rfl | ⟨1, _⟩ => rfl | ⟨2, _⟩ => rfl)

/-- Stage 11 at (p, t) is the sum of the row's exponentials. -/
theorem v11_at (p : Fin 32) (t : Fin 1024) :
    val_main_v11 x0 x1 x2 (ix2 p t)
      = ∑ k' : Fin 64, Ideal.exp (Spec.logit (xs x0 p) (ws x1) (bs x2) t k' - Spec.rowMax (Spec.logit (xs x0 p) (ws x1) (bs x2) t)) := by
  rw [val_main_v11_apply, val_main_cst_1_apply, Ideal.ofBits_def, Ideal.ofBits_zero_f32, zero_add]
  refine Finset.sum_congr rfl fun k _ => ?_
  rw [idx11, v10_at]

/-- Stage 14 at (p, t, k) is how much of descriptor t is assigned to centre k. -/
theorem v14_at (p : Fin 32) (t : Fin 1024) (k : Fin 64) :
    val_main_v14 x0 x1 x2 (ix3 p t k) = Spec.assign (xs x0 p) (ws x1) (bs x2) t k := by
  rw [val_main_v14_apply, val_main_v13_apply, val_main_v12_apply, idx1213, v11_at, v10_at, Ideal.hostDivf_def]
  rfl

/-! ### The residual against the centres -/

theorem lidx15 (p : Fin 32) (k : Fin 64) (d : Fin 512) (t : Fin 1024) :
    lidx_main_v15 (ix3 p k d) t = ix3 p t k :=
  funext fun a => Fin.ext (by match a with | ⟨0, _⟩ => rfl | ⟨1, _⟩ => rfl | ⟨2, _⟩ => rfl)

theorem ridx15 (p : Fin 32) (k : Fin 64) (d : Fin 512) (t : Fin 1024) :
    ridx_main_v15 (ix3 p k d) t = ix3 p t d :=
  funext fun a => Fin.ext (by match a with | ⟨0, _⟩ => rfl | ⟨1, _⟩ => rfl | ⟨2, _⟩ => rfl)

/-- Stage 15 at (p, k, d) is the descriptors weighted by their assignment to centre k, summed. -/
theorem v15_at (p : Fin 32) (k : Fin 64) (d : Fin 512) :
    val_main_v15 x0 x1 x2 (ix3 p k d)
      = ∑ t : Fin 1024, Spec.assign (xs x0 p) (ws x1) (bs x2) t k * xs x0 p t d := by
  rw [val_main_v15_apply]
  refine Finset.sum_congr rfl fun t _ => ?_
  rw [lidx15, ridx15, v14_at]

theorem idx16 (p : Fin 32) (k : Fin 64) (t : Fin 1024) :
    idx_main_v16 (ix2 p k) t = ix3 p t k :=
  funext fun a => Fin.ext (by match a with | ⟨0, _⟩ => rfl | ⟨1, _⟩ => rfl | ⟨2, _⟩ => rfl)

/-- Stage 16 at (p, k) is the total assignment to centre k. -/
theorem v16_at (p : Fin 32) (k : Fin 64) :
    val_main_v16 x0 x1 x2 (ix2 p k) = ∑ t : Fin 1024, Spec.assign (xs x0 p) (ws x1) (bs x2) t k := by
  rw [val_main_v16_apply, val_main_cst_2_apply, Ideal.ofBits_def, Ideal.ofBits_zero_f32, zero_add]
  refine Finset.sum_congr rfl fun t _ => ?_
  rw [idx16, v14_at]

theorem idx1719 (p : Fin 32) (k : Fin 64) (d : Fin 512) :
    idx_main_v17 (idx_main_v19 (ix3 p k d)) = ix2 p k :=
  funext fun a => Fin.ext (by match a with | ⟨0, _⟩ => rfl | ⟨1, _⟩ => rfl)

theorem idx1820 (p : Fin 32) (k : Fin 64) (d : Fin 512) :
    idx_main_v18 (idx_main_v20 (ix3 p k d)) = ix2 k d :=
  funext fun a => Fin.ext (by match a with | ⟨0, _⟩ => rfl | ⟨1, _⟩ => rfl)

/-- Stage 22 at (p, k, d) is centre k's residual. -/
theorem v22_at (p : Fin 32) (k : Fin 64) (d : Fin 512) :
    val_main_v22 x0 x1 x2 x3 (ix3 p k d) = Spec.residual (xs x0 p) (ws x1) (bs x2) (cs x3) k d := by
  rw [val_main_v22_apply, val_main_v21_apply, val_main_v19_apply, val_main_v17_apply, idx1719,
    val_main_v20_apply, val_main_v18_apply, idx1820, v15_at, v16_at, Ideal.subf_def, Ideal.mulf_def]
  rfl

/-! ### Each centre's residual scaled to unit length -/

theorem idx24 (p : Fin 32) (k : Fin 64) (d : Fin 512) :
    idx_main_v24 (ix2 p k) d = ix3 p k d :=
  funext fun a => Fin.ext (by match a with | ⟨0, _⟩ => rfl | ⟨1, _⟩ => rfl | ⟨2, _⟩ => rfl)

/-- Stage 24 at (p, k) is the squared length of centre k's residual. -/
theorem v24_at (p : Fin 32) (k : Fin 64) :
    val_main_v24 x0 x1 x2 x3 (ix2 p k)
      = ∑ d' : Fin 512, Spec.residual (xs x0 p) (ws x1) (bs x2) (cs x3) k d' * Spec.residual (xs x0 p) (ws x1) (bs x2) (cs x3) k d' := by
  rw [val_main_v24_apply, val_main_cst_3_apply, Ideal.ofBits_def, Ideal.ofBits_zero_f32, zero_add]
  refine Finset.sum_congr rfl fun d _ => ?_
  rw [idx24, val_main_v23_apply, v22_at, Ideal.mulf_def]

theorem idx2529 (p : Fin 32) (k : Fin 64) (d : Fin 512) :
    idx_main_v25 (idx_main_v29 (ix3 p k d)) = ix2 p k :=
  funext fun a => Fin.ext (by match a with | ⟨0, _⟩ => rfl | ⟨1, _⟩ => rfl)

/-- Stage 30 at (p, k, d) is centre k's residual scaled by the inverse root of its squared length. -/
theorem v30_at (p : Fin 32) (k : Fin 64) (d : Fin 512) :
    val_main_v30 x0 x1 x2 x3 (ix3 p k d) = Spec.intra (xs x0 p) (ws x1) (bs x2) (cs x3) k d := by
  rw [val_main_v30_apply, val_main_v29_apply, val_main_v28_apply, val_main_v27_apply, val_main_v25_apply, idx2529,
    val_main_v26_apply, val_main_cst_4_apply, v24_at, v22_at, Ideal.mulf_def, Ideal.hostUnary_rsqrt_def,
    Ideal.maximumf_def, Ideal.ofBits_def]
  rfl

/-! ### The table flattened and scaled to unit length -/

theorem idx31 (p : Fin 32) (J : Fin 32768) :
    idx_main_v31 (ix2 p J) = ix3 p ⟨J.val / 512, by omega⟩ ⟨J.val % 512, Nat.mod_lt _ (by decide)⟩ :=
  funext fun a => Fin.ext (by
    have hp := p.isLt
    have hJ := J.isLt
    match a with
    | ⟨0, _⟩ => show (p.val * 32768 + J.val) / 32768 = p.val; omega
    | ⟨1, _⟩ => show (p.val * 32768 + J.val) / 512 % 64 = J.val / 512; omega
    | ⟨2, _⟩ => show (p.val * 32768 + J.val) % 512 = J.val % 512; omega)

/-- Stage 31 at (p, J) is entry J of the scaled residuals read row by row. -/
theorem v31_at (p : Fin 32) (J : Fin 32768) :
    val_main_v31 x0 x1 x2 x3 (ix2 p J) = Spec.flat (Spec.intra (xs x0 p) (ws x1) (bs x2) (cs x3)) J := by
  rw [val_main_v31_apply, idx31, v30_at]
  rfl

/-- Entry 512·t + q of a table read row by row is its entry (t, q). -/
theorem flat_run (G : Fin 64 → Fin 512 → EReal) (t : Fin 64) (q : Fin 512) (h : 512 * t.val + q.val < 32768) :
    Spec.flat G ⟨512 * t.val + q.val, h⟩ = G t q := by
  unfold Spec.flat
  have ht := t.isLt
  have hq := q.isLt
  exact congrArg₂ G (Fin.ext (by show (512 * t.val + q.val) / 512 = t.val; omega))
    (Fin.ext (by show (512 * t.val + q.val) % 512 = q.val; omega))

/-- The squared length of a table read row by row is the sum over its rows of each row's squared length. -/
theorem sum_flat_sq (G : Fin 64 → Fin 512 → EReal) :
    ∑ J : Fin 32768, Spec.flat G J * Spec.flat G J = ∑ k' : Fin 64, ∑ d' : Fin 512, G k' d' * G k' d' := by
  rw [Cert.SumSplit.sum_split 64 512 32768 (by norm_num) (fun J => Spec.flat G J * Spec.flat G J)]
  refine Finset.sum_congr rfl fun t _ => Finset.sum_congr rfl fun q _ => ?_
  rw [flat_run]

theorem idx33 (p : Fin 32) (J : Fin 32768) :
    idx_main_v33 (ix1 p) J = ix2 p J :=
  funext fun a => Fin.ext (by match a with | ⟨0, _⟩ => rfl | ⟨1, _⟩ => rfl)

/-- Stage 33 at p is the squared length of the whole table of scaled residuals. -/
theorem v33_at (p : Fin 32) :
    val_main_v33 x0 x1 x2 x3 (ix1 p)
      = ∑ k' : Fin 64, ∑ d' : Fin 512, Spec.intra (xs x0 p) (ws x1) (bs x2) (cs x3) k' d' * Spec.intra (xs x0 p) (ws x1) (bs x2) (cs x3) k' d' := by
  rw [val_main_v33_apply, val_main_cst_5_apply, Ideal.ofBits_def, Ideal.ofBits_zero_f32, zero_add]
  refine Eq.trans (Finset.sum_congr rfl fun J _ => ?_) (sum_flat_sq (Spec.intra (xs x0 p) (ws x1) (bs x2) (cs x3)))
  rw [idx33, val_main_v32_apply, v31_at, Ideal.mulf_def]

theorem idx3438 (p : Fin 32) (J : Fin 32768) :
    idx_main_v34 (idx_main_v38 (ix2 p J)) = ix1 p :=
  funext fun a => Fin.ext (by match a with | ⟨0, _⟩ => rfl)

/-- Stage 39 at (p, J) is entry J of the result table read row by row. -/
theorem v39_at (p : Fin 32) (J : Fin 32768) :
    val_main_v39 x0 x1 x2 x3 (ix2 p J) = Spec.flat (Spec.vlad (xs x0 p) (ws x1) (bs x2) (cs x3)) J := by
  rw [val_main_v39_apply, val_main_v38_apply, val_main_v37_apply, val_main_v36_apply, val_main_v34_apply, idx3438,
    val_main_v35_apply, val_main_cst_6_apply, v33_at, v31_at, Ideal.mulf_def, Ideal.hostUnary_rsqrt_def,
    Ideal.maximumf_def, Ideal.ofBits_def]
  rfl

/-! ### The projection -/

theorem lidx40 (p : Fin 32) (o : Fin 1024) (J : Fin 32768) :
    lidx_main_v40 (ix2 p o) J = ix2 p J :=
  funext fun a => Fin.ext (by match a with | ⟨0, _⟩ => rfl | ⟨1, _⟩ => rfl)

theorem ridx40 (p : Fin 32) (o : Fin 1024) (J : Fin 32768) :
    ridx_main_v40 (ix2 p o) J = ix2 J o :=
  funext fun a => Fin.ext (by match a with | ⟨0, _⟩ => rfl | ⟨1, _⟩ => rfl)

/-- Stage 40 at (p, o) is the flattened result table times column o of the projection matrix. -/
theorem v40_at (p : Fin 32) (o : Fin 1024) :
    val_main_v40 x0 x1 x2 x3 x4 (ix2 p o)
      = ∑ J : Fin 32768, Spec.flat (Spec.vlad (xs x0 p) (ws x1) (bs x2) (cs x3)) J * x4 (ix2 J o) := by
  rw [val_main_v40_apply]
  refine Finset.sum_congr rfl fun J _ => ?_
  rw [lidx40, ridx40, v39_at]

end Stages

/-- The reference's result at batch element p and output column o is the specification's. -/
theorem ref_apply (x0 : (⟨S32x1024x512, .f32⟩ : BufTy).Contents (Elt Ideal)) (x1 : (⟨S512x64, .f32⟩ : BufTy).Contents (Elt Ideal))
    (x2 : (⟨S64, .f32⟩ : BufTy).Contents (Elt Ideal)) (x3 : (⟨S64x512, .f32⟩ : BufTy).Contents (Elt Ideal))
    (x4 : (⟨S32768x1024, .f32⟩ : BufTy).Contents (Elt Ideal)) (p : Fin 32) (o : Fin 1024) :
    val_main_v40 x0 x1 x2 x3 x4 (ix2 p o)
      = Cert.Spec.out (fun p' t d => x0 (ix3 p' t d)) (fun d k => x1 (ix2 d k)) (fun k => x2 (ix1 k))
          (fun k d => x3 (ix2 k d)) (fun J o' => x4 (ix2 J o')) p o := by
  rw [v40_at]
  rfl

end Cert.RefValue

end
-- ==== Proof.Entry.lean ====
import proofs.«162594_j65197603553867_1_alg».proof.Proof.KernelIdeal.Run
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Entry

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat)

variable (m : (ℓ : Loc nD τ sig) → Buf (Elt Ideal) ℓ) (ρ : Dev nD → PrngReg)

/-- The five argument arrays at launch, each at its literal shape. -/
abbrev argX (c : Dev nD) : Vec Ideal S32x1024x512 .f32 := m ((c.tc : Thread nD τ).loc main_arg0)
abbrev argW (c : Dev nD) : Vec Ideal S512x64 .f32 := m ((c.tc : Thread nD τ).loc main_arg1)
abbrev argB (c : Dev nD) : Vec Ideal S64 .f32 := m ((c.tc : Thread nD τ).loc main_arg2)
abbrev argC (c : Dev nD) : Vec Ideal S64x512 .f32 := m ((c.tc : Thread nD τ).loc main_arg3)
abbrev argR (c : Dev nD) : Vec Ideal S32768x1024 .f32 := m ((c.tc : Thread nD τ).loc main_arg4)

/-! ## A buffer no host operation writes -/

/-- The one host operation before the first region writes the bias row only: any other buffer is as launched. -/
theorem before_first (c : Dev nD) (b : Ref sig .tc) (hb : b ≠ main_v0) :
    W1 (F := Ideal) m ρ c (Proc.devRef .tc b) = m ((c.tc : Thread nD τ).loc b) := by
  show StableHlo.after hostOps0 (W0 m ρ c) (Proc.devRef .tc b) = _
  simp only [StableHlo.after_cons, StableHlo.after_nil]
  rw [StableHlo.reshape_result_ne]
  exact hb

/-- The one host operation between the regions writes the flattened table only: any other buffer is as the
    first region left it. -/
theorem between_regions (c : Dev nD) (b : Ref sig .tc) (hb : b ≠ main_v2) :
    W3 (F := Ideal) m ρ c (Proc.devRef .tc b) = W2 m ρ c (Proc.devRef .tc b) := by
  show StableHlo.after hostOps1 (W2 m ρ c) (Proc.devRef .tc b) = _
  simp only [StableHlo.after_cons, StableHlo.after_nil]
  rw [StableHlo.reshape_result_ne]
  exact hb

/-! ## The two recasts read at an index -/

/-- A vector of 64 recast as a 1 × 64 row: entry (0, k) is the vector at k. -/
theorem row_apply (v : Vec Ideal S64 .f32) (k : Fin 64) :
    shapeCast S1x64 v shapeCasts_S64_S1x64 (ix2 (0 : Fin 1) k) = v (ix1 k) := by
  refine shapeCast_apply v _ _ _ ?_
  rw [Shape.rowMajor_val_one, Shape.rowMajor_val_two]
  show k.val = (0 : Fin 1).val * 64 + k.val
  simp

/-- A 32 × 64 × 512 array recast as 32 × 32768: entry (p, J) is the array at (p, J / 512, J % 512). -/
theorem flat_apply (v : Vec Ideal S32x64x512 .f32) (p : Fin 32) (J : Fin 32768) :
    shapeCast S32x32768 v shapeCasts_S32x64x512_S32x32768 (ix2 p J)
      = v (ix3 p (⟨J.val / 512, by omega⟩ : Fin 64) (⟨J.val % 512, Nat.mod_lt _ (by decide)⟩ : Fin 512)) := by
  refine shapeCast_apply v _ _ _ ?_
  rw [Shape.rowMajor_val_three, Shape.rowMajor_val_two]
  show (p.val * 64 + J.val / 512) * 512 + J.val % 512 = p.val * 32768 + J.val
  omega

/-- The first region finds the descriptors, the weights and the centres as launched: the one host operation
    before it writes only the bias row. -/
theorem entry0_x (c : Dev nD) : V1 (F := Ideal) m ρ c main_arg0 = argX m c := by
  exact before_first m ρ c main_arg0 (by decide)
theorem entry0_w (c : Dev nD) : V1 (F := Ideal) m ρ c main_arg1 = argW m c := by
  exact before_first m ρ c main_arg1 (by decide)
theorem entry0_c (c : Dev nD) : V1 (F := Ideal) m ρ c main_arg3 = argC m c := by
  exact before_first m ρ c main_arg3 (by decide)
/-- and the bias as a 1 × 64 row: entry (0, k) is the bias at k. -/
theorem entry0_b (c : Dev nD) (k : Fin 64) : V1 (F := Ideal) m ρ c main_v0 (ix2 (0 : Fin 1) k) = argB m c (ix1 k) := by
  show StableHlo.after hostOps0 (W0 m ρ c) (Proc.devRef .tc main_v0) (ix2 (0 : Fin 1) k) = _
  after_results
  exact row_apply (argB m c) k

/-- The second region finds the matrix as launched: neither host operation and no window of the first region
    writes it. -/
theorem entry1_r (c : Dev nD) : V3 (F := Ideal) m ρ c main_arg4 = argR m c := by
  exact (between_regions m ρ c main_arg4 (by decide)).trans
    ((W2_of_ne m ρ c main_arg4 (by decide)).trans (before_first m ρ c main_arg4 (by decide)))
/-- and the first region's result flattened row by row: entry (p, J) is the table's entry (p, J / 512, J % 512). -/
theorem entry1_table (c : Dev nD) (p : Fin 32) (J : Fin 32768) :
    V3 (F := Ideal) m ρ c main_v2 (ix2 p J)
      = (dat0 (F := Ideal) (V1 m ρ) c).arrAt 4 cfg0.N (ix3 p (⟨J.val / 512, by omega⟩ : Fin 64) (⟨J.val % 512, Nat.mod_lt _ (by decide)⟩ : Fin 512)) := by
  show StableHlo.after hostOps1 (W2 m ρ c) (Proc.devRef .tc main_v2) (ix2 p J) = _
  after_results
  exact (flat_apply (W2 m ρ c (Proc.devRef .tc main_v1)) p J).trans (congrFun (W2_arr m ρ c 4) _)

end Cert.KernelIdeal.Entry

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«162594_j65197603553867_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibRowMax.lean ====
/-
  The greatest entry of each row of a small array, read at explicit coordinates, at the ideal values.

  A rank-2 array `[B, w]` reduced by a maximum over its last axis gives, at `r`, the maximum over `l < w` of the
  entries `(r, l)`, folded from a starting value: the accumulator's value for the kernel's
  `vector.multi_reduction <maximumf>`, the initial value's one element for the host's `stablehlo.reduce` with a
  `maximum` body. Both are the same fold of `max` over `Fin w`, so the two meet whenever their starting values do;
  and such a fold is never below its starting value, so taking the maximum with the starting value once more changes
  nothing.

  The result index is any index `j` whose coordinate is the given one (a hypothesis on `.val`), so that a caller
  may pass whatever spelling of the index its goal carries.
-/
import Idealize.ShloMosaic.PureOps.Ideal.Laws
import Idealize.ShloMosaic.Lib.ValueIdx

noncomputable section

namespace Idealize.ShloMosaic.RowMax

open Idealize.ShloMosaic Idealize.ShloMosaic.ValueIdx

variable {φ : FTy}

/-- The maximum of a row's entries, folded from `b`. -/
def rowMax {w : Nat} (b : EReal) (z : Fin w → EReal) : EReal :=
  (Finset.univ : Finset (Fin w)).fold max b z

/-- The fold is never below its starting value. -/
theorem le_rowMax {w : Nat} (b : EReal) (z : Fin w → EReal) : b ≤ rowMax b z :=
  (Finset.le_fold_max b).mpr (Or.inl le_rfl)

/-- Taking the maximum with the starting value once more changes nothing. -/
theorem max_rowMax {w : Nat} (b : EReal) (z : Fin w → EReal) : max b (rowMax b z) = rowMax b z :=
  max_eq_right (le_rowMax b z)

/-- The kernel's maximum over the LAST axis of a `[B, w]` array, at an index with coordinate `r`. -/
theorem last_max {B w : Nat} (P : FVec Ideal ⟨2, ![B, w]⟩ φ) (acc : BitVec φ.bits)
    (h : Shape.Reduces ⟨2, ![B, w]⟩ [1] ⟨1, ![B]⟩) (hφ : FKind.Formats φ) (hacc : acc = FKind.maximumf.neutral φ hφ)
    (j : (⟨1, ![B]⟩ : Shape).Idx) (r : Fin B) (hr : (j 0).val = r.val) :
    multiReduction .maximumf [1] ⟨1, ![B]⟩ P acc h hφ hacc j = rowMax (Ideal.ofBits φ acc) (fun l => P (ix2 r l)) := by
  refine (Ideal.multiReduction_maximumf_single P acc h hφ hacc j).trans ?_
  refine congrArg (fun f => Finset.fold max (Ideal.ofBits φ acc) f (Finset.univ : Finset (Fin w))) ?_
  refine funext fun l => congrArg P (funext fun a => Fin.ext ?_)
  match a with
  | ⟨0, _⟩ => exact hr
  | ⟨1, _⟩ => rfl

/-- The host's maximum over the LAST axis of a `[B, w]` array, at an index with coordinate `r`, from the initial
    value's one element. -/
theorem host_last_max {B w : Nat} {u : Shape} (x : (⟨2, ![B, w]⟩ : Shape).Idx → Ideal φ) (init : u.Idx → Ideal φ)
    (h' : Shape.ReducesTo ⟨2, ![B, w]⟩ [1] ⟨1, ![B]⟩) (h : Shape.Reduces ⟨2, ![B, w]⟩ [1] ⟨1, ![B]⟩) (hu : 0 < u.numel)
    (j : (⟨1, ![B]⟩ : Shape).Idx) (r : Fin B) (hr : (j 0).val = r.val) :
    Host.reduce FloatOps.maximumf x init h' hu j = rowMax (init (Shape.Idx.first hu)) (fun l => x (ix2 r l)) := by
  refine (Host.reduce_eq_fold_single FloatOps.maximumf x init h' h hu j).trans ?_
  refine congrArg (fun f => Finset.fold max (init (Shape.Idx.first hu)) f (Finset.univ : Finset (Fin w))) ?_
  refine funext fun l => congrArg x (funext fun a => Fin.ext ?_)
  match a with
  | ⟨0, _⟩ => exact hr
  | ⟨1, _⟩ => rfl

end Idealize.ShloMosaic.RowMax

end
-- ==== Proof.LibAxisSums.lean ====
/-
  Sums along axes of small arrays, read at explicit coordinates, at the ideal values.

  A rank-3 array `[B, n, w]` summed over its middle axis gives, at `(r, q)`, the sum over `i < n` of the entries
  `(r, i, q)`; a rank-2 array `[B, w]` summed over its last axis gives, at `r`, the sum over `l < w` of the entries
  `(r, l)`. Both are stated for the kernel's `vector.multi_reduction <add>` (whose neutral accumulator the reading
  drops) and for the host's `stablehlo.reduce` with `add` (which adds its initial value in front). The host may also
  sum a rank-3 array over its last TWO axes at once: at `r` that is the initial value plus the double sum over
  `i < n` and `l < w` of the entries `(r, i, l)`; the indices that drop to `r` are exactly the triples `(r, i, l)`,
  which the pairs `(i, l)` enumerate once each.

  The result index is any index `j` whose coordinates are the given ones (hypotheses on `.val`), so that a caller
  may pass whatever spelling of the index its goal carries.
-/
import Idealize.ShloMosaic.PureOps.Ideal.Laws
import Idealize.ShloMosaic.Lib.ValueIdx
import Idealize.ShloMosaic.Lib.IdealHost

noncomputable section

open scoped BigOperators

namespace Idealize.ShloMosaic.AxisSums

open Idealize.ShloMosaic Idealize.ShloMosaic.ValueIdx

variable {φ : FTy}

/-- The kernel's sum over the MIDDLE axis of a `[B, n, w]` array, at an index with coordinates `(r, q)`. -/
theorem middle_sum {B n w : Nat} (P : FVec Ideal ⟨3, ![B, n, w]⟩ φ) (acc : BitVec φ.bits)
    (h : Shape.Reduces ⟨3, ![B, n, w]⟩ [1] ⟨2, ![B, w]⟩) (hφ : FKind.Formats φ) (hacc : acc = FKind.add.neutral φ hφ)
    (j : (⟨2, ![B, w]⟩ : Shape).Idx) (r : Fin B) (q : Fin w) (hr : (j 0).val = r.val) (hq : (j 1).val = q.val) :
    multiReduction .add [1] ⟨2, ![B, w]⟩ P acc h hφ hacc j = ∑ i : Fin n, P (ix3 r i q) := by
  refine (Ideal.multiReduction_add_single P acc h hφ hacc j).trans ?_
  refine Finset.sum_congr rfl fun i _ => congrArg P (funext fun a => Fin.ext ?_)
  match a with
  | ⟨0, _⟩ => exact hr
  | ⟨1, _⟩ => rfl
  | ⟨2, _⟩ => exact hq

/-- The kernel's sum over the LAST axis of a `[B, w]` array, at an index with coordinate `r`. -/
theorem last_sum {B w : Nat} (P : FVec Ideal ⟨2, ![B, w]⟩ φ) (acc : BitVec φ.bits)
    (h : Shape.Reduces ⟨2, ![B, w]⟩ [1] ⟨1, ![B]⟩) (hφ : FKind.Formats φ) (hacc : acc = FKind.add.neutral φ hφ)
    (j : (⟨1, ![B]⟩ : Shape).Idx) (r : Fin B) (hr : (j 0).val = r.val) :
    multiReduction .add [1] ⟨1, ![B]⟩ P acc h hφ hacc j = ∑ l : Fin w, P (ix2 r l) := by
  refine (Ideal.multiReduction_add_single P acc h hφ hacc j).trans ?_
  refine Finset.sum_congr rfl fun l _ => congrArg P (funext fun a => Fin.ext ?_)
  match a with
  | ⟨0, _⟩ => exact hr
  | ⟨1, _⟩ => rfl

/-- The host's sum over the MIDDLE axis of a `[B, n, w]` array, at an index with coordinates `(r, q)`. -/
theorem host_middle_sum {B n w : Nat} (x : (⟨3, ![B, n, w]⟩ : Shape).Idx → EReal) (init : EReal)
    (h' : Shape.ReducesTo ⟨3, ![B, n, w]⟩ [1] ⟨2, ![B, w]⟩) (h : Shape.Reduces ⟨3, ![B, n, w]⟩ [1] ⟨2, ![B, w]⟩)
    (j : (⟨2, ![B, w]⟩ : Shape).Idx) (r : Fin B) (q : Fin w) (hr : (j 0).val = r.val) (hq : (j 1).val = q.val) :
    Ideal.hostReduceAdd h' x init j = init + ∑ i : Fin n, x (ix3 r i q) := by
  refine (Ideal.hostReduceAdd_single h' h x init j).trans (congrArg (init + ·) ?_)
  refine Finset.sum_congr rfl fun i _ => congrArg x (funext fun a => Fin.ext ?_)
  match a with
  | ⟨0, _⟩ => exact hr
  | ⟨1, _⟩ => rfl
  | ⟨2, _⟩ => exact hq

/-- The host's sum over the LAST axis of a `[B, w]` array, at an index with coordinate `r`. -/
theorem host_last_sum {B w : Nat} (x : (⟨2, ![B, w]⟩ : Shape).Idx → EReal) (init : EReal)
    (h' : Shape.ReducesTo ⟨2, ![B, w]⟩ [1] ⟨1, ![B]⟩) (h : Shape.Reduces ⟨2, ![B, w]⟩ [1] ⟨1, ![B]⟩)
    (j : (⟨1, ![B]⟩ : Shape).Idx) (r : Fin B) (hr : (j 0).val = r.val) :
    Ideal.hostReduceAdd h' x init j = init + ∑ l : Fin w, x (ix2 r l) := by
  refine (Ideal.hostReduceAdd_single h' h x init j).trans (congrArg (init + ·) ?_)
  refine Finset.sum_congr rfl fun l _ => congrArg x (funext fun a => Fin.ext ?_)
  match a with
  | ⟨0, _⟩ => exact hr
  | ⟨1, _⟩ => rfl

/-- Dropping the last two coordinates of a rank-3 index keeps the first. -/
theorem drop_last_two_val {B n w : Nat} (h' : Shape.ReducesTo ⟨3, ![B, n, w]⟩ [1, 2] ⟨1, ![B]⟩)
    (i : (⟨3, ![B, n, w]⟩ : Shape).Idx) : (h'.drop i 0).val = (i 0).val := rfl

/-- The host's sum over the LAST TWO axes of a `[B, n, w]` array, at an index with coordinate `r`: the initial value
    plus the double sum over both dropped coordinates. -/
theorem host_last_two_sum {B n w : Nat} (x : (⟨3, ![B, n, w]⟩ : Shape).Idx → EReal) (init : EReal)
    (h' : Shape.ReducesTo ⟨3, ![B, n, w]⟩ [1, 2] ⟨1, ![B]⟩)
    (j : (⟨1, ![B]⟩ : Shape).Idx) (r : Fin B) (hr : (j 0).val = r.val) :
    Ideal.hostReduceAdd h' x init j = init + ∑ i : Fin n, ∑ l : Fin w, x (ix3 r i l) := by
  unfold Ideal.hostReduceAdd
  refine congrArg (init + ·) ?_
  rw [← Finset.sum_product' (s := (Finset.univ : Finset (Fin n))) (t := (Finset.univ : Finset (Fin w)))
    (f := fun i l => x (ix3 r i l))]
  refine Finset.sum_nbij' (fun i => ((⟨(i 1).val, (i 1).isLt⟩ : Fin n), (⟨(i 2).val, (i 2).isLt⟩ : Fin w)))
    (fun p => ix3 r p.1 p.2) ?_ ?_ ?_ ?_ ?_
  · intro i _; exact Finset.mem_product.2 ⟨Finset.mem_univ _, Finset.mem_univ _⟩
  · intro p _
    refine Finset.mem_filter.2 ⟨Finset.mem_univ _, funext fun b => Fin.ext ?_⟩
    match b with
    | ⟨0, _⟩ => exact ((drop_last_two_val h' (ix3 r p.1 p.2)).trans hr.symm)
  · intro i hi
    have hj : h'.drop i = j := (Finset.mem_filter.1 hi).2
    have h0 : (i 0).val = r.val := by
      rw [← drop_last_two_val h' i, hj]; exact hr
    funext a; apply Fin.ext
    match a with
    | ⟨0, _⟩ => exact h0.symm
    | ⟨1, _⟩ => rfl
    | ⟨2, _⟩ => rfl
  · intro p _; rfl
  · intro i hi
    have hj : h'.drop i = j := (Finset.mem_filter.1 hi).2
    have h0 : (i 0).val = r.val := by
      rw [← drop_last_two_val h' i, hj]; exact hr
    refine congrArg x (funext fun a => Fin.ext ?_)
    match a with
    | ⟨0, _⟩ => exact h0
    | ⟨1, _⟩ => rfl
    | ⟨2, _⟩ => rfl

end Idealize.ShloMosaic.AxisSums

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.PayNetvlad.lean ====
import proofs.«162594_j65197603553867_1_alg».proof.Proof.Gen.KernelIdeal.Skeleton
import proofs.«162594_j65197603553867_1_alg».proof.Proof.Spec
import proofs.«162594_j65197603553867_1_alg».proof.Proof.LibPlainDotAny
import proofs.«162594_j65197603553867_1_alg».proof.Proof.LibRowMax
import proofs.«162594_j65197603553867_1_alg».proof.Proof.LibAxisSums
import proofs.«162594_j65197603553867_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayNetvlad

open Idealize.ShloMosaic Idealize.ShloMosaic.ValueIdx Cert.KernelIdeal Cert.KernelIdeal.Gen

/-! ## The first kernel's body cut into its stages

Each stage is the run of operations the body applies, as one function of the values that enter it, at any float
family; the body is their composition, by unfolding. -/

section Stages

variable {F : FTy → Type} [FloatOps F]

/-- The scores: the descriptors times the projection, into a zero accumulator, plus the bias row down the rows. -/
def scoresV (x0 : Vec F S1x1024x512 .f32) (w : Vec F S512x64 .f32) (b : Vec F S1x64 .f32) : FVec F S1024x64 .f32 :=
  addf
    (matmul dot_S1024x512_S512x64_S1024x64_1_0_0_1_n_n none
      (truncf .bf16 (shapeCast S1024x512 x0 shapeCasts_S1x1024x512_S1024x512) bitsLt_bf16_f32)
      (truncf .bf16 w bitsLt_bf16_f32) (constant S1024x64 .f32 0x00000000#32))
    (broadcastTo S1024x64 (shapeCast S1x64 b shapeCasts_S1x64_S1x64) broadcasts_S1x64_S1024x64)

/-- Each row's greatest score, as a vector over the rows. -/
def rowMaxV (L : FVec F S1024x64 .f32) : FVec F S1024 .f32 :=
  maximumf (broadcast S1024 (Scalar.ofBits .f32 0xFF800000#32))
    (multiReduction .maximumf [1] S1024 L 0xFF800000#32 reduces_S1024x64_S1024 (.inl rfl) rfl)

/-- The exponentials of the scores shifted by their row's maximum. -/
def expV (L : FVec F S1024x64 .f32) : FVec F S1024x64 .f32 :=
  exp (subf L (broadcastTo S1024x64 (shapeCast S1024x1 (rowMaxV L) shapeCasts_S1024_S1024x1) broadcasts_S1024x1_S1024x64))

/-- The softmax along each row. -/
def softV (L : FVec F S1024x64 .f32) : FVec F S1024x64 .f32 :=
  divf (expV L)
    (broadcastTo S1024x64
      (shapeCast S1024x1 (multiReduction .add [1] S1024 (expV L) 0x00000000#32 reduces_S1024x64_S1024 (.inl rfl) rfl)
        shapeCasts_S1024_S1024x1)
      broadcasts_S1024x1_S1024x64)

/-- The residual table: the assignments transposed times the descriptors, less each centre weighted by its column's
    total assignment. -/
def residV (A : FVec F S1024x64 .f32) (x0 : Vec F S1x1024x512 .f32) (c : Vec F S64x512 .f32) : FVec F S64x512 .f32 :=
  subf
    (matmul dot_S64x1024_S1024x512_S64x512_1_0_0_1_n_n none
      (transpose S64x1024 [1, 0] (truncf .bf16 A bitsLt_bf16_f32) transposes_S1024x64_p1_0_S64x1024)
      (truncf .bf16 (shapeCast S1024x512 x0 shapeCasts_S1x1024x512_S1024x512) bitsLt_bf16_f32)
      (constant S64x512 .f32 0x00000000#32))
    (mulf
      (broadcastTo S64x512
        (shapeCast S64x1 (multiReduction .add [0] S64 A 0x00000000#32 reduces_S1024x64_S64 (.inl rfl) rfl) shapeCasts_S64_S64x1)
        broadcasts_S64x1_S64x512)
      c)

/-- Each row of a table scaled by the inverse root of its squared length, floored. -/
def unitRowsV (R : FVec F S64x512 .f32) : FVec F S64x512 .f32 :=
  mulf R
    (broadcastTo S64x512
      (rsqrt
        (maximumf
          (shapeCast S64x1 (multiReduction .add [1] S64 (mulf R R) 0x00000000#32 reduces_S64x512_S64 (.inl rfl) rfl)
            shapeCasts_S64_S64x1)
          (broadcast S64x1 (Scalar.ofBits .f32 0x2B8CBCCC#32))))
      broadcasts_S64x1_S64x512)

/-- The squared length of a whole table, as a one-entry vector. -/
def sqLenV (T : FVec F S64x512 .f32) : FVec F S1 .f32 :=
  multiReduction .add [1, 2] S1 (shapeCast S1x64x512 (mulf T T) shapeCasts_S64x512_S1x64x512) 0x00000000#32
    reduces_S1x64x512_S1 (.inl rfl) rfl

/-- The body up to the per-centre scaling is the composition of the stages. -/
theorem pay2_eq (x0 : Vec F S1x1024x512 .f32) (w : Vec F S512x64 .f32) (b : Vec F S1x64 .f32) (c : Vec F S64x512 .f32) :
    k0_pay2 x0 w b c = unitRowsV (residV (softV (scoresV x0 w b)) x0 c) := rfl

/-- The table's squared length as the kernel takes it. -/
theorem pay3_eq (x0 : Vec F S1x1024x512 .f32) (w : Vec F S512x64 .f32) (b : Vec F S1x64 .f32) (c : Vec F S64x512 .f32) :
    k0_pay3 x0 w b c = sqLenV (k0_pay2 x0 w b c) := rfl

end Stages

/-! ## The stages read at explicit coordinates, at the ideal values -/

section Points

/-- A sum over the first axis of a `[B, w]` array, at column `q`: the sum over the rows of the entries `(i, q)`. -/
theorem first_sum {φ : FTy} {B w : Nat} (P : FVec Ideal ⟨2, ![B, w]⟩ φ) (acc : BitVec φ.bits)
    (h : Shape.Reduces ⟨2, ![B, w]⟩ [0] ⟨1, ![w]⟩) (hφ : FKind.Formats φ) (hacc : acc = FKind.add.neutral φ hφ)
    (q : Fin w) :
    multiReduction .add [0] ⟨1, ![w]⟩ P acc h hφ hacc (ix1 q) = ∑ i : Fin B, P (ix2 i q) := by
  refine (Ideal.multiReduction_add_single P acc h hφ hacc (ix1 q)).trans ?_
  refine Finset.sum_congr rfl fun i _ => congrArg P (funext fun a => Fin.ext ?_)
  match a with
  | ⟨0, _⟩ => rfl
  | ⟨1, _⟩ => rfl

/-- The indices of a `[1, a, b]` array are the pairs of its last two coordinates. -/
def idxEquiv1ab {a b : Nat} : (⟨3, ![1, a, b]⟩ : Shape).Idx ≃ Fin a × Fin b where
  toFun i := (i 1, i 2)
  invFun p := ix3 (0 : Fin 1) p.1 p.2
  left_inv i := by
    funext ax
    match ax with
    | ⟨0, _⟩ => exact Fin.ext (by show 0 = (i 0).val; have : (i 0).val < 1 := (i 0).isLt; omega)
    | ⟨1, _⟩ => rfl
    | ⟨2, _⟩ => rfl
  right_inv _ := rfl

/-- So a sum over them is the double sum over those coordinates. -/
theorem sum_idx1ab {M : Type*} [AddCommMonoid M] {a b : Nat} (f : (⟨3, ![1, a, b]⟩ : Shape).Idx → M) :
    ∑ i, f i = ∑ p : Fin a, ∑ q : Fin b, f (ix3 (0 : Fin 1) p q) := by
  rw [← Equiv.sum_comp (idxEquiv1ab (a := a) (b := b)).symm f, Fintype.sum_prod_type]
  rfl

variable (x0 : Vec Ideal S1x1024x512 .f32) (w : Vec Ideal S512x64 .f32) (b : Vec Ideal S1x64 .f32)
  (c : Vec Ideal S64x512 .f32)

/-- The scores at descriptor t and centre k. -/
theorem scoresV_apply (t : Fin 1024) (k : Fin 64) :
    scoresV (F := Ideal) x0 w b (ix2 t k)
      = Cert.Spec.logit (fun t d' => x0 (ix3 (0 : Fin 1) t d')) (fun d' k' => w (ix2 d' k'))
          (fun k' => b (ix2 (0 : Fin 1) k')) t k := by
  unfold scoresV Cert.Spec.logit
  refine (addf_apply _ _ _).trans (congrArg₂ (· + ·) ?_ ?_)
  · refine (PlainDot.matmul_zero_apply_any 1024 512 64 none _ _ (ix2 t k)).trans ?_
    refine Finset.sum_congr rfl fun d' _ => ?_
    refine congrArg₂ (· * ·) ?_ rfl
    exact shapeCast_1ab_ab_apply x0 shapeCasts_S1x1024x512_S1024x512 t d'
  · refine (broadcastTo_1b_ab_apply _ broadcasts_S1x64_S1024x64 t k).trans ?_
    rw [shapeCast_self]

/-- The greatest score of descriptor t. -/
theorem rowMaxV_apply (L : FVec Ideal S1024x64 .f32) (t : Fin 1024) :
    rowMaxV L (ix1 t) = Cert.Spec.rowMax (fun k' => L (ix2 t k')) := by
  unfold rowMaxV Cert.Spec.rowMax
  refine (maximumf_apply _ _ _).trans (congrArg₂ max rfl ?_)
  exact RowMax.last_max L 0xFF800000#32 reduces_S1024x64_S1024 (.inl rfl) rfl (ix1 t) t rfl

/-- The shifted exponential at descriptor t and centre k. -/
theorem expV_apply (L : FVec Ideal S1024x64 .f32) (t : Fin 1024) (k : Fin 64) :
    expV L (ix2 t k) = Ideal.exp (L (ix2 t k) - Cert.Spec.rowMax (fun k' => L (ix2 t k'))) := by
  unfold expV
  refine congrArg (fun z => Ideal.exp (L (ix2 t k) - z)) ?_
  refine (Keepdims.broadcastTo_a1_ab_apply _ broadcasts_S1024x1_S1024x64 t k).trans ?_
  refine (Keepdims.shapeCast_a_a1_apply _ shapeCasts_S1024_S1024x1 t 0).trans ?_
  exact rowMaxV_apply L t

/-- The softmax at descriptor t and centre k. -/
theorem softV_apply (L : FVec Ideal S1024x64 .f32) (t : Fin 1024) (k : Fin 64) :
    softV L (ix2 t k) = Cert.Spec.soft (fun k' => L (ix2 t k')) k := by
  unfold softV Cert.Spec.soft
  refine (divf_apply _ _ _).trans (congrArg₂ Ideal.div (expV_apply L t k) ?_)
  refine (Keepdims.broadcastTo_a1_ab_apply _ broadcasts_S1024x1_S1024x64 t k).trans ?_
  refine (Keepdims.shapeCast_a_a1_apply _ shapeCasts_S1024_S1024x1 t 0).trans ?_
  refine (AxisSums.last_sum (expV L) 0x00000000#32 reduces_S1024x64_S1024 (.inl rfl) rfl (ix1 t) t rfl).trans ?_
  exact Finset.sum_congr rfl fun k' _ => expV_apply L t k'

/-- The residual table at centre k and feature d, over any assignment array. -/
theorem residV_apply (A : FVec Ideal S1024x64 .f32) (k : Fin 64) (d : Fin 512) :
    residV A x0 c (ix2 k d)
      = (∑ t : Fin 1024, A (ix2 t k) * x0 (ix3 (0 : Fin 1) t d)) - (∑ t : Fin 1024, A (ix2 t k)) * c (ix2 k d) := by
  unfold residV
  refine (subf_apply _ _ _).trans (congrArg₂ (· - ·) ?_ ?_)
  · refine (PlainDot.matmul_zero_apply_any 64 1024 512 none _ _ (ix2 k d)).trans ?_
    refine Finset.sum_congr rfl fun t _ => congrArg₂ (· * ·) ?_ ?_
    · exact transpose_ix2_apply _ transposes_S1024x64_p1_0_S64x1024 k t
    · exact shapeCast_1ab_ab_apply x0 shapeCasts_S1x1024x512_S1024x512 t d
  · refine (mulf_apply _ _ _).trans (congrArg (· * c (ix2 k d)) ?_)
    refine (Keepdims.broadcastTo_a1_ab_apply _ broadcasts_S64x1_S64x512 k d).trans ?_
    refine (Keepdims.shapeCast_a_a1_apply _ shapeCasts_S64_S64x1 k 0).trans ?_
    exact first_sum A 0x00000000#32 reduces_S1024x64_S64 (.inl rfl) rfl k

/-- A table's row k scaled to unit length, at feature d. -/
theorem unitRowsV_apply (R : FVec Ideal S64x512 .f32) (k : Fin 64) (d : Fin 512) :
    unitRowsV R (ix2 k d)
      = R (ix2 k d) * Ideal.rsqrt (max (∑ d' : Fin 512, R (ix2 k d') * R (ix2 k d')) Cert.Spec.eps) := by
  unfold unitRowsV
  refine (mulf_apply _ _ _).trans (congrArg (R (ix2 k d) * ·) ?_)
  refine (Keepdims.broadcastTo_a1_ab_apply _ broadcasts_S64x1_S64x512 k d).trans ?_
  refine congrArg (fun z => Ideal.rsqrt (max z Cert.Spec.eps)) ?_
  refine (Keepdims.shapeCast_a_a1_apply _ shapeCasts_S64_S64x1 k 0).trans ?_
  exact AxisSums.last_sum (mulf R R) 0x00000000#32 reduces_S64x512_S64 (.inl rfl) rfl (ix1 k) k rfl

/-- A table's squared length: the double sum of its squared entries. -/
theorem sqLenV_apply (T : FVec Ideal S64x512 .f32) (j : S1.Idx) :
    sqLenV T j = ∑ k' : Fin 64, ∑ d' : Fin 512, T (ix2 k' d') * T (ix2 k' d') := by
  unfold sqLenV
  refine (Ideal.multiReduction_add_total _ 0x00000000#32 reduces_S1x64x512_S1
    (fun ax => match ax with | ⟨0, _⟩ => rfl) (.inl rfl) rfl j).trans ?_
  refine (sum_idx1ab _).trans ?_
  refine Finset.sum_congr rfl fun k' _ => Finset.sum_congr rfl fun d' _ => ?_
  exact shapeCast_ab_1ab_apply (mulf T T) shapeCasts_S64x512_S1x64x512 0 k' d'

/-- The last scaling: the table times the inverse root of its squared length, floored. -/
theorem pay1_apply (T : FVec Ideal S64x512 .f32) (s : FVec Ideal S1 .f32) (k : Fin 64) (d : Fin 512) :
    k0_pay1 (F := Ideal) T s (ix3 (0 : Fin 1) k d)
      = T (ix2 k d) * Ideal.rsqrt (max (s (ix1 (0 : Fin 1))) Cert.Spec.eps) := by
  unfold k0_pay1
  refine (shapeCast_ab_1ab_apply _ shapeCasts_S64x512_S1x64x512 0 k d).trans ?_
  refine (mulf_apply _ _ _).trans (congrArg (T (ix2 k d) * ·) ?_)
  refine (broadcastTo_apply _ broadcasts_S1x1_S64x512 (ix2 k d) (ix2 (0 : Fin 1) (0 : Fin 1)) fun a => ?_).trans ?_
  · match a with
    | ⟨0, _⟩ => rfl
    | ⟨1, _⟩ => rfl
  · refine congrArg (fun z => Ideal.rsqrt (max z Cert.Spec.eps)) ?_
    refine (shapeCast_apply s shapeCasts_S1_S1x1x1 _ (ix1 (0 : Fin 1)) ?_).trans rfl
    rfl

end Points

/-! ## The body's table and the stored value -/

section Assembly

variable (x0 : Vec Ideal S1x1024x512 .f32) (w : Vec Ideal S512x64 .f32) (b : Vec Ideal S1x64 .f32)
  (c : Vec Ideal S64x512 .f32)

/-- The assignment array the body computes, at descriptor t and centre k. -/
theorem assignV_apply (t : Fin 1024) (k : Fin 64) :
    softV (scoresV (F := Ideal) x0 w b) (ix2 t k)
      = Cert.Spec.assign (fun t d' => x0 (ix3 (0 : Fin 1) t d')) (fun d' k' => w (ix2 d' k'))
          (fun k' => b (ix2 (0 : Fin 1) k')) t k := by
  refine (softV_apply _ t k).trans ?_
  unfold Cert.Spec.assign
  exact congrArg (fun v => Cert.Spec.soft v k) (funext fun k' => scoresV_apply x0 w b t k')

/-- The residual table the body computes, at centre k and feature d. -/
theorem residualV_apply (k : Fin 64) (d : Fin 512) :
    residV (softV (scoresV (F := Ideal) x0 w b)) x0 c (ix2 k d)
      = Cert.Spec.residual (fun t d' => x0 (ix3 (0 : Fin 1) t d')) (fun d' k' => w (ix2 d' k'))
          (fun k' => b (ix2 (0 : Fin 1) k')) (fun k' d' => c (ix2 k' d')) k d := by
  refine (residV_apply x0 c _ k d).trans ?_
  unfold Cert.Spec.residual
  refine congrArg₂ (· - ·) ?_ (congrArg (· * c (ix2 k d)) ?_)
  · exact Finset.sum_congr rfl fun t _ => congrArg (· * x0 (ix3 (0 : Fin 1) t d)) (assignV_apply x0 w b t k)
  · exact Finset.sum_congr rfl fun t _ => assignV_apply x0 w b t k

/-- The body's table up to the per-centre scaling, at centre k and feature d. -/
theorem pay2_apply (k : Fin 64) (d : Fin 512) :
    k0_pay2 (F := Ideal) x0 w b c (ix2 k d)
      = Cert.Spec.intra (fun t d' => x0 (ix3 (0 : Fin 1) t d')) (fun d' k' => w (ix2 d' k'))
          (fun k' => b (ix2 (0 : Fin 1) k')) (fun k' d' => c (ix2 k' d')) k d := by
  rw [pay2_eq]
  refine (unitRowsV_apply _ k d).trans ?_
  unfold Cert.Spec.intra
  refine congrArg₂ (· * ·) (residualV_apply x0 w b c k d) ?_
  refine congrArg (fun z => Ideal.rsqrt (max z Cert.Spec.eps)) ?_
  exact Finset.sum_congr rfl fun d' _ =>
    congrArg₂ (· * ·) (residualV_apply x0 w b c k d') (residualV_apply x0 w b c k d')

end Assembly

/-- What the first kernel stores for one batch element, read at centre k and feature d: the unit-length
    residual table of that element's descriptors. -/
theorem netvlad_apply (x0 : Vec Ideal S1x1024x512 .f32) (w : Vec Ideal S512x64 .f32) (b : Vec Ideal S1x64 .f32)
    (c : Vec Ideal S64x512 .f32) (k : Fin 64) (d : Fin 512) :
    k0_pay1 (F := Ideal) (k0_pay2 x0 w b c) (k0_pay3 x0 w b c) (ix3 (0 : Fin 1) k d)
      = Cert.Spec.vlad (fun t d' => x0 (ix3 (0 : Fin 1) t d')) (fun d' k' => w (ix2 d' k')) (fun k' => b (ix2 (0 : Fin 1) k'))
          (fun k' d' => c (ix2 k' d')) k d := by
  refine (pay1_apply _ _ k d).trans ?_
  unfold Cert.Spec.vlad
  refine congrArg₂ (· * ·) (pay2_apply x0 w b c k d) ?_
  refine congrArg (fun z => Ideal.rsqrt (max z Cert.Spec.eps)) ?_
  rw [pay3_eq]
  refine (sqLenV_apply _ _).trans ?_
  exact Finset.sum_congr rfl fun k' _ => Finset.sum_congr rfl fun d' _ =>
    congrArg₂ (· * ·) (pay2_apply x0 w b c k' d') (pay2_apply x0 w b c k' d')

end Cert.KernelIdeal.PayNetvlad

end
-- ==== Proof.Value0.lean ====
import proofs.«162594_j65197603553867_1_alg».proof.Proof.KernelIdeal.Netvlad
import proofs.«162594_j65197603553867_1_alg».proof.Proof.PayNetvlad
import proofs.«162594_j65197603553867_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Value0

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat)

variable (V : (c : Dev nD) → (b : Ref sig .tc) → Buf (Elt Ideal) ((c : Thread nD τ).loc b))

/-! ## Zero offsets, however spelt -/

theorem zero3 : (![0, 0, 0] : Fin 3 → Nat) = fun _ => 0 := funext fun a => by fin_cases a <;> rfl
theorem zero2 : (![0, 0] : Fin 2 → Nat) = fun _ => 0 := funext fun a => by fin_cases a <;> rfl

/-! ## The result array as one function of the region's input arrays -/

/-- At batch element p, centre k and feature d: the unit-length residual table of element p's descriptors. -/
abbrev table (c : Dev nD) : Buf (Elt Ideal) ((c : Thread nD τ).loc main_v1) := fun (i : S32x64x512.Idx) =>
  Cert.Spec.vlad (fun t d' => V c main_arg0 (ix3 (i 0) t d')) (fun d' k' => V c main_arg1 (ix2 d' k'))
    (fun k' => V c main_v0 (ix2 (0 : Fin 1) k')) (fun k' d' => V c main_arg3 (ix2 k' d')) (i 1) (i 2)

/-! ## Where the blocks sit

Grid point t takes block t of the descriptors (one batch element) and of the result, and the one block that is
the whole of the weights, the bias row and the centres. -/

theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The descriptors' block at point t is batch element t of the array. -/
theorem descriptors_block (c : Dev nD) (t : Fin cfg0.N) (y : S1x1024x512.Idx) (i : S32x1024x512.Idx)
    (h0 : (i 0).val = t.val) (h1 : (i 1).val = (y 1).val) (h2 : (i 2).val = (y 2).val) :
    (iblk0 V c 0 t : Vec Ideal S1x1024x512 .f32) y = (V c main_arg0 : S32x1024x512.Idx → EReal) i := by
  obtain ⟨e0, e1, e2, -⟩ := block_indices t
  have hy : (y 0).val < 1 := (y 0).isLt
  unfold iblk0
  rw [View.read_apply]
  show V c main_arg0 _ = V c main_arg0 _
  congr 1
  funext a
  apply Fin.ext
  match a with
  | ⟨0, _⟩ => show win0_0.index t (0 : Fin 3) * 1 + 1 * (y 0).val = (i 0).val; omega
  | ⟨1, _⟩ => show win0_0.index t (1 : Fin 3) * 1024 + 1 * (y 1).val = (i 1).val; omega
  | ⟨2, _⟩ => show win0_0.index t (2 : Fin 3) * 512 + 1 * (y 2).val = (i 2).val; omega

/-- The weights' block at every point is the array. -/
theorem weights_block (c : Dev nD) (t : Fin cfg0.N) (y : S512x64.Idx) :
    (iblk0 V c 1 t : Vec Ideal S512x64 .f32) y = (V c main_arg1 : S512x64.Idx → EReal) y := by
  obtain ⟨-, -, -, e0, e1, -⟩ := block_indices t
  unfold iblk0
  rw [View.read_apply]
  show V c main_arg1 _ = V c main_arg1 _
  congr 1
  funext a
  apply Fin.ext
  match a with
  | ⟨0, _⟩ => show win0_1.index t (0 : Fin 2) * 512 + 1 * (y 0).val = (y 0).val; omega
  | ⟨1, _⟩ => show win0_1.index t (1 : Fin 2) * 64 + 1 * (y 1).val = (y 1).val; omega

/-- The bias row's block at every point is the array. -/
theorem bias_block (c : Dev nD) (t : Fin cfg0.N) (y : S1x64.Idx) :
    (iblk0 V c 2 t : Vec Ideal S1x64 .f32) y = (V c main_v0 : S1x64.Idx → EReal) y := by
  obtain ⟨-, -, -, -, -, e0, e1, -⟩ := block_indices t
  unfold iblk0
  rw [View.read_apply]
  show V c main_v0 _ = V c main_v0 _
  congr 1
  funext a
  apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The centres' block at every point is the array. -/
theorem centres_block (c : Dev nD) (t : Fin cfg0.N) (y : S64x512.Idx) :
    (iblk0 V c 3 t : Vec Ideal S64x512 .f32) y = (V c main_arg3 : S64x512.Idx → EReal) y := by
  obtain ⟨-, -, -, -, -, -, -, e0, e1, -⟩ := block_indices t
  unfold iblk0
  rw [View.read_apply]
  show V c main_arg3 _ = V c main_arg3 _
  congr 1
  funext a
  apply Fin.ext
  match a with
  | ⟨0, _⟩ => show win0_3.index t (0 : Fin 2) * 64 + 1 * (y 0).val = (y 0).val; omega
  | ⟨1, _⟩ => show win0_3.index t (1 : Fin 2) * 512 + 1 * (y 1).val = (y 1).val; omega

/-! ## What one point stores, as a block of the table -/

/-- The stored block of one batch element, from blocks that are that element's descriptors and the whole of the
    weights, bias row and centres, is the table at that element. -/
theorem stored_apply (c : Dev nD) (x0 : Vec Ideal S1x1024x512 .f32) (x1 : Vec Ideal S512x64 .f32) (x2 : Vec Ideal S1x64 .f32)
    (x3 : Vec Ideal S64x512 .f32) (y : S1x64x512.Idx) (i : S32x64x512.Idx)
    (h0 : ∀ s d', x0 (ix3 (0 : Fin 1) s d') = V c main_arg0 (ix3 (i 0) s d'))
    (h1 : ∀ d' k', x1 (ix2 d' k') = V c main_arg1 (ix2 d' k'))
    (h2 : ∀ k', x2 (ix2 (0 : Fin 1) k') = V c main_v0 (ix2 (0 : Fin 1) k'))
    (h3 : ∀ k' d', x3 (ix2 k' d') = V c main_arg3 (ix2 k' d'))
    (hy1 : (i 1).val = (y 1).val) (hy2 : (i 2).val = (y 2).val) :
    k0_pay1 (F := Ideal) (k0_pay2 x0 x1 x2 x3) (k0_pay3 x0 x1 x2 x3) y = table V c i := by
  obtain ⟨a, k, d, rfl⟩ : ∃ (a : Fin 1) (k : Fin 64) (d : Fin 512), y = ix3 a k d := ⟨y 0, y 1, y 2, eq_ix3 y⟩
  obtain rfl : a = 0 := Subsingleton.elim a 0
  rw [PayNetvlad.netvlad_apply]
  show Cert.Spec.vlad _ _ _ _ k d = Cert.Spec.vlad _ _ _ _ (i 1) (i 2)
  rw [show i 1 = k from Fin.ext hy1, show i 2 = d from Fin.ext hy2]
  simp only [h0, h1, h2, h3]

/-- What grid point t writes back is block t of the table. -/
theorem flushed_eq (c : Dev nD) (t : Fin cfg0.N) :
    (dat0 (F := Ideal) V c).flushed 4 t = ((cfg0.win 4).blk t).view.read (Elt Ideal) (table V c) := by
  show (cfg0.win 4).cut (grid0.coords t) ((dat0 V c).after 4 t) = _
  rw [after0_4]
  unfold out0_4
  rw [View.canon_unit_zero zero3]
  simp only [View.ld_unit_zero (S := S1x1024x512) zero3, View.ld_unit_zero (S := S512x64) zero2,
    View.ld_unit_zero (S := S1x64) zero2, View.ld_unit_zero (S := S64x512) zero2]
  obtain ⟨-, -, -, -, -, -, -, -, -, e0, e1, e2⟩ := block_indices t
  funext j
  have hj : (j 0).val < 1 := (j 0).isLt
  rw [View.read_apply]
  refine stored_apply V c _ _ _ _ j _ (fun s d' => ?_) (fun d' k' => weights_block V c t _)
    (fun k' => bias_block V c t _) (fun k' d' => centres_block V c t _) ?_ ?_
  · refine descriptors_block V c t _ _ ?_ rfl rfl
    show win0_4.index t (0 : Fin 3) * 1 + 1 * (j 0).val = t.val
    omega
  · show win0_4.index t (1 : Fin 3) * 64 + 1 * (j 1).val = (j 1).val
    omega
  · show win0_4.index t (2 : Fin 3) * 512 + 1 * (j 2).val = (j 2).val
    omega

/-! ## The blocks tile the array -/

/-- An index of the result array is in point t's block iff each coordinate is in the block's range on its axis. -/
theorem mem_block (t : Fin cfg0.N) (i : S32x64x512.Idx) :
    i ∈ ((cfg0.win 4).blk t).view.set
      ↔ ∀ a : Fin 3, win0_4.index t a * S1x64x512.size a ≤ (i a).val
          ∧ (i a).val < win0_4.index t a * S1x64x512.size a + S1x64x512.size a := by
  show i ∈ ((View.whole main_v1).slice (win0_4.rect t)).set ↔ _
  rw [View.set_slice_whole, Rect.mem_set_unit]
  exact Iff.rfl

/-- Batch element p of the result array lies in the block grid point p writes back. -/
theorem covered (i : S32x64x512.Idx) :
    ∃ t : Fin cfg0.N, (cfg0.win 4).flush t = true ∧ i ∈ ((cfg0.win 4).blk t).view.set := by
  have hi0 : (i 0).val < 32 := (i 0).isLt
  have hi1 : (i 1).val < 64 := (i 1).isLt
  have hi2 : (i 2).val < 512 := (i 2).isLt
  obtain ⟨t, ht⟩ : ∃ t : Fin cfg0.N, t.val = (i 0).val :=
    ⟨⟨(i 0).val, by rw [show cfg0.N = 32 from N_0]; exact hi0⟩, rfl⟩
  obtain ⟨-, -, -, -, -, -, -, -, -, e0, e1, e2⟩ := block_indices t
  refine ⟨t, flush0_4 t, ?_⟩
  rw [mem_block]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 64 ≤ (i 1).val ∧ (i 1).val < win0_4.index t (1 : Fin 3) * 64 + 64
    omega
  | ⟨2, _⟩ =>
    show win0_4.index t (2 : Fin 3) * 512 ≤ (i 2).val ∧ (i 2).val < win0_4.index t (2 : Fin 3) * 512 + 512
    omega

/-- After the region the result array is the table. -/
theorem arr_eq (c : Dev nD) : (dat0 (F := Ideal) V c).arrAt 4 cfg0.N = table V c :=
  (dat0 (F := Ideal) V c).arrAt_eq_of_cover 4 (table V c) (fun t _ => flushed_eq V c t) covered

/-- After the first region the result array holds, at batch element p, centre k and feature d, the unit-length
    residual table of element p's descriptors: grid point p wrote block p, and the blocks tile the array. -/
theorem arr_apply (c : Dev nD) (p : Fin 32) (k : Fin 64) (d : Fin 512) :
    (dat0 (F := Ideal) V c).arrAt 4 cfg0.N (ix3 p k d)
      = Cert.Spec.vlad (fun t d' => V c main_arg0 (ix3 p t d')) (fun d' k' => V c main_arg1 (ix2 d' k'))
          (fun k' => V c main_v0 (ix2 (0 : Fin 1) k')) (fun k' d' => V c main_arg3 (ix2 k' d')) k d := by
  exact congrFun (arr_eq V c) (ix3 p k d)

end Cert.KernelIdeal.Value0

end
-- ==== Proof.PayProject.lean ====
import proofs.«162594_j65197603553867_1_alg».proof.Proof.Gen.KernelIdeal.Skeleton
import proofs.«162594_j65197603553867_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Logic.Equiv.Fin.Basic

noncomputable section

namespace Cert.KernelIdeal.PayProject

open Idealize.ShloMosaic Idealize.ShloMosaic.ValueIdx Cert.KernelIdeal Cert.KernelIdeal.Gen

/-! ## The operand indices of the 32 × 2048 by 2048 × 1024 product

At output entry (row, column) and contraction position k the left operand is read at (row, k) and the
right operand at (k, column).  One fact per operand axis. -/

/-- The left operand's row is the output's row. -/
theorem lhs_axis_0 (i : S32x1024.Idx) (q : dot_S32x2048_S2048x1024_S32x1024_1_0_0_1_n_n.contr.Idx) :
    (dot_S32x2048_S2048x1024_S32x1024_1_0_0_1_n_n.lhsIdx i q 0).val = (i 0).val := by
  unfold DotDims.lhsIdx
  rw [dif_neg (show ¬(0 : Fin S32x2048.rank) ∈ dot_S32x2048_S2048x1024_S32x1024_1_0_0_1_n_n.lhsBatch by decide),
    dif_pos (show (0 : Fin S32x2048.rank) ∈ dot_S32x2048_S2048x1024_S32x1024_1_0_0_1_n_n.lhsNonContracting by decide)]
  rfl

/-- The left operand's column is the contraction position. -/
theorem lhs_axis_1 (i : S32x1024.Idx) (q : dot_S32x2048_S2048x1024_S32x1024_1_0_0_1_n_n.contr.Idx) :
    (dot_S32x2048_S2048x1024_S32x1024_1_0_0_1_n_n.lhsIdx i q 1).val = (q ⟨0, by decide⟩).val :=
  dot_S32x2048_S2048x1024_S32x1024_1_0_0_1_n_n.lhsIdx_val_of_single rfl i q

/-- The right operand's row is the contraction position. -/
theorem rhs_axis_0 (i : S32x1024.Idx) (q : dot_S32x2048_S2048x1024_S32x1024_1_0_0_1_n_n.contr.Idx) :
    (dot_S32x2048_S2048x1024_S32x1024_1_0_0_1_n_n.rhsIdx i q 0).val = (q ⟨0, by decide⟩).val :=
  dot_S32x2048_S2048x1024_S32x1024_1_0_0_1_n_n.rhsIdx_val_of_single rfl i q

/-- The right operand's column is the output's column. -/
theorem rhs_axis_1 (i : S32x1024.Idx) (q : dot_S32x2048_S2048x1024_S32x1024_1_0_0_1_n_n.contr.Idx) :
    (dot_S32x2048_S2048x1024_S32x1024_1_0_0_1_n_n.rhsIdx i q 1).val = (i 1).val := by
  unfold DotDims.rhsIdx
  rw [dif_neg (show ¬(1 : Fin S2048x1024.rank) ∈ dot_S32x2048_S2048x1024_S32x1024_1_0_0_1_n_n.rhsBatch by decide),
    dif_pos (show (1 : Fin S2048x1024.rank) ∈ dot_S32x2048_S2048x1024_S32x1024_1_0_0_1_n_n.rhsNonContracting by decide)]
  rfl

/-- The product into a zero accumulator, read at an output entry: the sum over the 2048 contraction
    positions of left (row, k) times right (k, column). -/
theorem product_apply (a : FVec Ideal S32x2048 .bf16) (b : FVec Ideal S2048x1024 .bf16) (p : Fin 32) (o : Fin 1024) :
    FloatOps.matmul dot_S32x2048_S2048x1024_S32x1024_1_0_0_1_n_n none a b (constant S32x1024 .f32 0x00000000#32) (ix2 p o)
      = ∑ j : Fin 2048, a (ix2 p j) * b (ix2 j o) := by
  rw [Ideal.matmul_constant_zero_apply,
    ← Equiv.sum_comp (contrEquiv1 dot_S32x2048_S2048x1024_S32x1024_1_0_0_1_n_n 2048 rfl rfl).symm]
  refine Finset.sum_congr rfl fun k _ => ?_
  have hk := contrEquiv1_symm_val dot_S32x2048_S2048x1024_S32x1024_1_0_0_1_n_n 2048 rfl rfl k
  have el : dot_S32x2048_S2048x1024_S32x1024_1_0_0_1_n_n.lhsIdx (ix2 p o)
      ((contrEquiv1 dot_S32x2048_S2048x1024_S32x1024_1_0_0_1_n_n 2048 rfl rfl).symm k) = ix2 p k :=
    funext fun c => Fin.ext (by
      match c with
      | ⟨0, _⟩ => exact lhs_axis_0 _ _
      | ⟨1, _⟩ => exact (lhs_axis_1 _ _).trans hk)
  have er : dot_S32x2048_S2048x1024_S32x1024_1_0_0_1_n_n.rhsIdx (ix2 p o)
      ((contrEquiv1 dot_S32x2048_S2048x1024_S32x1024_1_0_0_1_n_n 2048 rfl rfl).symm k) = ix2 k o :=
    funext fun c => Fin.ext (by
      match c with
      | ⟨0, _⟩ => exact (rhs_axis_0 _ _).trans hk
      | ⟨1, _⟩ => exact rhs_axis_1 _ _)
  rw [el, er]

/-- The value the accumulator is reset to at the first grid point: zero everywhere. -/
theorem zero_apply (i : S32x1024.Idx) : k1_pay1 (F := Ideal) i = 0 := by
  unfold k1_pay1
  rw [shapeCast_self]
  exact Ideal.ofBits_zero_f32

/-- One step of the second kernel: the accumulator plus the product of a 32 × 2048 block of the flattened
    table with the matching 2048 × 1024 block of the matrix. -/
theorem project_apply (f : Vec Ideal S32x2048 .f32) (r : Vec Ideal S2048x1024 .f32) (s : Vec Ideal S32x1024 .f32)
    (p : Fin 32) (o : Fin 1024) :
    k1_pay2 (F := Ideal) f r s (ix2 p o) = s (ix2 p o) + ∑ j : Fin 2048, f (ix2 p j) * r (ix2 j o) := by
  unfold k1_pay2
  rw [shapeCast_self, shapeCast_self]
  refine (addf_apply _ _ _).trans ?_
  refine congrArg (s (ix2 p o) + ·) ?_
  exact product_apply _ _ p o

/-- Sixteen consecutive runs of 2048 terms are the 32768 terms. -/
theorem sum_blocks (g : Fin 32768 → EReal) :
    (∑ t : Fin 16, ∑ j : Fin 2048, g ⟨t.val * 2048 + j.val, by omega⟩) = ∑ J : Fin 32768, g J := by
  -- the double sum is a sum over pairs, and a pair (t, j) is the position t · 2048 + j
  rw [← Fintype.sum_prod_type (fun x : Fin 16 × Fin 2048 => g ⟨x.1.val * 2048 + x.2.val, by omega⟩)]
  refine Fintype.sum_equiv (finProdFinEquiv (m := 16) (n := 2048)) _ g fun x => congrArg g (Fin.ext ?_)
  show x.1.val * 2048 + x.2.val = x.2.val + 2048 * x.1.val
  omega

end Cert.KernelIdeal.PayProject

end
-- ==== Proof.Value1.lean ====
import proofs.«162594_j65197603553867_1_alg».proof.Proof.KernelIdeal.Project
import proofs.«162594_j65197603553867_1_alg».proof.Proof.PayProject
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Value1

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat)

variable (V : (c : Dev nD) → (b : Ref sig .tc) → Buf (Elt Ideal) ((c : Thread nD τ).loc b))

/-- The flattened table and the matrix as the region finds them, and the result array after the region, each at
    its literal shape. -/
abbrev tableIn (c : Dev nD) : Vec Ideal S32x32768 .f32 := V c main_v2
abbrev matrixIn (c : Dev nD) : Vec Ideal S32768x1024 .f32 := V c main_arg4
abbrev resultOut (c : Dev nD) : Vec Ideal S32x1024 .f32 := (dat1 (F := Ideal) V c).arrAt 2 cfg1.N

/-! ## The blocks at a point, at their literal shapes -/

/-- The table's block and the matrix's block the body reads at point t, and the accumulator after point n. -/
abbrev tableBlk (c : Dev nD) (t : Fin cfg1.N) : Vec Ideal S32x2048 .f32 := iblk1 (F := Ideal) V c 0 t
abbrev matrixBlk (c : Dev nD) (t : Fin cfg1.N) : Vec Ideal S2048x1024 .f32 := iblk1 (F := Ideal) V c 1 t
abbrev accOut (c : Dev nD) (n : ℕ) (h : n < cfg1.N) : Vec Ideal S32x1024 .f32 := accAt (F := Ideal) V c n h

/-- Where each window's block sits at point t: the table's at column block t, the matrix's at row block t, the
    result's one block at the origin. -/
theorem idx_facts : ∀ t : Fin cfg1.N,
    win1_0.index t (0 : Fin 2) = 0 ∧ win1_0.index t (1 : Fin 2) = t.val
      ∧ win1_1.index t (0 : Fin 2) = t.val ∧ win1_1.index t (1 : Fin 2) = 0
      ∧ win1_2.index t (0 : Fin 2) = 0 ∧ win1_2.index t (1 : Fin 2) = 0 :=
  (by decide +kernel : ∀ t : Fin grid1.N, _)

/-- The table's block at point t, at (p, j): the table at row p, column t · 2048 + j. -/
theorem tableBlk_apply (c : Dev nD) (t : Fin cfg1.N) (p : Fin 32) (j : Fin 2048) :
    tableBlk V c t (ix2 p j)
      = tableIn V c (ix2 p ⟨t.val * 2048 + j.val, by have := t.isLt; have hN : cfg1.N = 16 := N_1; omega⟩) := by
  unfold tableBlk tableIn iblk1
  rw [View.read_apply]
  show V c main_v2 _ = V c main_v2 _
  refine congrArg (V c main_v2) (funext fun a => Fin.ext ?_)
  match a with
  | ⟨0, _⟩ =>
    show win1_0.index t (0 : Fin 2) * 32 + 1 * p.val = p.val
    rw [(idx_facts t).1]; omega
  | ⟨1, _⟩ =>
    show win1_0.index t (1 : Fin 2) * 2048 + 1 * j.val = t.val * 2048 + j.val
    rw [(idx_facts t).2.1]; omega

/-- The matrix's block at point t, at (j, o): the matrix at row t · 2048 + j, column o. -/
theorem matrixBlk_apply (c : Dev nD) (t : Fin cfg1.N) (j : Fin 2048) (o : Fin 1024) :
    matrixBlk V c t (ix2 j o)
      = matrixIn V c (ix2 ⟨t.val * 2048 + j.val, by have := t.isLt; have hN : cfg1.N = 16 := N_1; omega⟩ o) := by
  unfold matrixBlk matrixIn iblk1
  rw [View.read_apply]
  show V c main_arg4 _ = V c main_arg4 _
  refine congrArg (V c main_arg4) (funext fun a => Fin.ext ?_)
  match a with
  | ⟨0, _⟩ =>
    show win1_1.index t (0 : Fin 2) * 2048 + 1 * j.val = t.val * 2048 + j.val
    rw [(idx_facts t).2.2.1]; omega
  | ⟨1, _⟩ =>
    show win1_1.index t (1 : Fin 2) * 1024 + 1 * o.val = o.val
    rw [(idx_facts t).2.2.2.1]; omega

/-! ## The accumulator after each point -/

/-- The term of the long product at position J: row p of the table times column o of the matrix there. -/
def term (c : Dev nD) (p : Fin 32) (o : Fin 1024) (J : Fin 32768) : Ideal .f32 :=
  tableIn V c (ix2 p J) * matrixIn V c (ix2 J o)

/-- The product of the two blocks of point t, at (p, o): the 2048 terms from position t · 2048 on. -/
theorem block_product (c : Dev nD) (t : Fin cfg1.N) (p : Fin 32) (o : Fin 1024) :
    (∑ j : Fin 2048, tableBlk V c t (ix2 p j) * matrixBlk V c t (ix2 j o))
      = ∑ j : Fin 2048,
          term V c p o ⟨t.val * 2048 + j.val, by have := t.isLt; have hN : cfg1.N = 16 := N_1; omega⟩ :=
  Finset.sum_congr rfl fun j _ => congrArg₂ (· * ·) (tableBlk_apply V c t p j) (matrixBlk_apply V c t j o)

/-- The accumulator after point n, at (p, o): the terms of the blocks 0 to n, block by block. -/
theorem accOut_apply (c : Dev nD) (p : Fin 32) (o : Fin 1024) : ∀ (n : ℕ) (h : n < cfg1.N),
    accOut V c n h (ix2 p o)
      = ∑ t : Fin (n + 1), ∑ j : Fin 2048,
          term V c p o ⟨t.val * 2048 + j.val, by have := t.isLt; have hN : cfg1.N = 16 := N_1; omega⟩
  | 0, h => by
    refine (PayProject.project_apply (tableBlk V c ⟨0, h⟩) (matrixBlk V c ⟨0, h⟩) (k1_pay1 (F := Ideal)) p o).trans ?_
    rw [PayProject.zero_apply, zero_add]
    refine Eq.trans ?_ (Fin.sum_univ_castSucc _).symm
    rw [Fin.sum_univ_zero, zero_add]
    exact block_product V c ⟨0, h⟩ p o
  | n + 1, h => by
    refine (PayProject.project_apply (tableBlk V c ⟨n + 1, h⟩) (matrixBlk V c ⟨n + 1, h⟩)
      (accOut V c n (Nat.lt_of_succ_lt h)) p o).trans ?_
    refine Eq.trans ?_ (Fin.sum_univ_castSucc _).symm
    exact congrArg₂ (· + ·) (accOut_apply c p o n (Nat.lt_of_succ_lt h)) (block_product V c ⟨n + 1, h⟩ p o)

/-! ## The result array: the one block written back after the last point -/

/-- The accumulator after the last point, as contents of the result array: its one block is the array. -/
abbrev lastAcc (c : Dev nD) : Buf (Elt Ideal) ((c : Thread nD τ).loc main_v3) :=
  accAt (F := Ideal) V c 15 (by rw [show cfg1.N = 16 from N_1]; decide)

/-- The one write-back, after point 15, writes it: the block at the origin, of the array's own size, read through
    zero offsets is the array. -/
theorem flushed_eq (c : Dev nD) (t : Fin cfg1.N) (hf : (cfg1.win 2).flush t = true) :
    (dat1 (F := Ideal) V c).flushed 2 t = ((cfg1.win 2).blk t).view.read (Elt Ideal) (lastAcc V c) := by
  have hN : cfg1.N = 16 := N_1
  have h15 : t.val = 15 := by have := (flush1_2 t).mp hf; have := t.isLt; omega
  obtain rfl : t = t1_15 := Fin.ext h15
  show (cfg1.win 2).cut (grid1.coords t1_15) ((dat1 (F := Ideal) V c).after 2 t1_15) = _
  rw [after1_2]
  have hz' : (fun a => win1_2.index t1_15 a * main_v3.ty.shape.size a) = fun _ => 0 := funext fun a => by
    match a with
    | ⟨0, _⟩ => show win1_2.index t1_15 (0 : Fin 2) * 32 = 0; rw [(idx_facts t1_15).2.2.2.2.1]
    | ⟨1, _⟩ => show win1_2.index t1_15 (1 : Fin 2) * 1024 = 0; rw [(idx_facts t1_15).2.2.2.2.2]
  exact (Memref.read_access_unit_zero (Elt Ideal) main_v3 hz' (fun a => by rw [congrFun hz' a]; simp) (lastAcc V c)).symm

/-- So the result array ends at the accumulator after the last point: that point's block covers it. -/
theorem result_eq (c : Dev nD) : (dat1 (F := Ideal) V c).arrAt 2 cfg1.N = lastAcc V c :=
  (dat1 (F := Ideal) V c).arrAt_eq_of_cover 2 (lastAcc V c) (flushed_eq V c) fun i =>
    ⟨t1_15, (flush1_2 t1_15).mpr rfl, by
      show i ∈ ((View.whole main_v3).slice (win1_2.rect t1_15)).set
      rw [View.set_slice_whole, Rect.mem_set_unit]
      intro a
      have h0 : (i 0 : Nat) < 32 := (i 0).isLt
      have h1 : (i 1 : Nat) < 1024 := (i 1).isLt
      match a with
      | ⟨0, _⟩ =>
        show win1_2.index t1_15 (0 : Fin 2) * 32 ≤ (i 0 : Nat) ∧ (i 0 : Nat) < win1_2.index t1_15 (0 : Fin 2) * 32 + 32
        rw [(idx_facts t1_15).2.2.2.2.1]; omega
      | ⟨1, _⟩ =>
        show win1_2.index t1_15 (1 : Fin 2) * 1024 ≤ (i 1 : Nat) ∧ (i 1 : Nat) < win1_2.index t1_15 (1 : Fin 2) * 1024 + 1024
        rw [(idx_facts t1_15).2.2.2.2.2]; omega⟩

/-- After the second region the result array holds, at row p and column o, the product of row p of the flattened
    table with column o of the matrix: the sixteen blocks' products, accumulated point by point from zero, are
    the one sum over all 32768 terms, and the last point's accumulator is what is written back. -/
theorem arr_apply (c : Dev nD) (p : Fin 32) (o : Fin 1024) :
    resultOut V c (ix2 p o) = ∑ J : Fin 32768, tableIn V c (ix2 p J) * matrixIn V c (ix2 J o) := by
  show (dat1 (F := Ideal) V c).arrAt 2 cfg1.N (ix2 p o) = _
  rw [result_eq]
  refine (accOut_apply V c p o 15 (by rw [show cfg1.N = 16 from N_1]; decide)).trans ?_
  exact PayProject.sum_blocks (term V c p o)

end Cert.KernelIdeal.Value1

end
-- ==== Proof.Bridge.lean ====
import proofs.«162594_j65197603553867_1_alg».proof.Proof.KernelIdeal.Run
import proofs.«162594_j65197603553867_1_alg».proof.Proof.Entry
import proofs.«162594_j65197603553867_1_alg».proof.Proof.Value0
import proofs.«162594_j65197603553867_1_alg».proof.Proof.Value1
import proofs.«162594_j65197603553867_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Hand Cert.KernelIdeal.Entry
open Idealize.ShloMosaic.Pipeline (Dat)

variable (m : (ℓ : Loc nD τ sig) → Buf (Elt Ideal) ℓ) (ρ : Dev nD → PrngReg)

/-- The table the first region leaves is, at batch element p, centre k and feature d, the specification's table of
    the launched descriptors, weights, bias and centres. -/
theorem table_apply (c : Dev nD) (p : Fin 32) (k : Fin 64) (d : Fin 512) :
    (dat0 (F := Ideal) (V1 m ρ) c).arrAt 4 cfg0.N (ix3 p k d)
      = Cert.Spec.vlad (fun t d' => argX m c (ix3 p t d')) (fun d' k' => argW m c (ix2 d' k'))
          (fun k' => argB m c (ix1 k')) (fun k' d' => argC m c (ix2 k' d')) k d := by
  rw [Cert.KernelIdeal.Value0.arr_apply, entry0_x, entry0_w, entry0_c]
  exact congrArg
    (fun b : Fin 64 → EReal => Cert.Spec.vlad (fun t d' => argX m c (ix3 p t d')) (fun d' k' => argW m c (ix2 d' k')) b
      (fun k' d' => argC m c (ix2 k' d')) k d)
    (funext fun k' => entry0_b m ρ c k')

/-- The flattened table the second region reads is, at (p, J), entry J of that table read row by row. -/
theorem flat_apply (c : Dev nD) (p : Fin 32) (J : Fin 32768) :
    Cert.KernelIdeal.Value1.tableIn (V3 (F := Ideal) m ρ) c (ix2 p J)
      = Cert.Spec.flat (Cert.Spec.vlad (fun t d' => argX m c (ix3 p t d')) (fun d' k' => argW m c (ix2 d' k'))
          (fun k' => argB m c (ix1 k')) (fun k' d' => argC m c (ix2 k' d'))) J := by
  show V3 (F := Ideal) m ρ c main_v2 (ix2 p J) = _
  rw [entry1_table, table_apply]
  rfl

/-- The program's result array, after its run from the launch memory m, holds at row p and column o what the
    specification says of the five launched arguments. -/
theorem result_apply (c : Dev nD) (p : Fin 32) (o : Fin 1024) :
    Cert.KernelIdeal.Value1.resultOut (V3 (F := Ideal) m ρ) c (ix2 p o)
      = Cert.Spec.out (fun p' t d => argX m c (ix3 p' t d)) (fun d k => argW m c (ix2 d k)) (fun k => argB m c (ix1 k))
          (fun k d => argC m c (ix2 k d)) (fun J o' => argR m c (ix2 J o')) p o := by
  rw [Cert.KernelIdeal.Value1.arr_apply]
  unfold Cert.Spec.out
  refine Finset.sum_congr rfl fun J _ => ?_
  rw [flat_apply]
  exact congrArg (_ * ·) (congrFun (entry1_r m ρ c) (ix2 J o))

end Cert.KernelIdeal.Bridge

end
-- ==== Proof.lean ====
/-
  The certificate: a NetVLAD layer written as two TPU kernels computes, over the extended reals, what its plain
  reference computes.

  One batch element's 1024 descriptors are softly assigned to 64 centres (a softmax of x·w + b over the centres),
  the assigned descriptors are summed per centre and the centre, weighted by its total assignment, is taken off;
  each centre's residual is scaled to unit length, then the whole 64 × 512 table is; the table, flattened row by
  row, is multiplied by a 32768 × 1024 matrix.  The first kernel does everything up to the second scaling, one
  batch element per grid point; the second multiplies, sixteen runs of 2048 columns at a time, adding into an
  accumulator it keeps between grid points.  The reference does the same with whole-array operations.

  Both sides are the same finite sums of the same terms: the second kernel's sixteen partial products added from
  zero are the one sum over 32768 terms, and the first kernel's sum of squares over a 64 × 512 table is the
  reference's over the flattened 32768 entries.  Sums of extended reals may be regrouped and reordered freely, so
  nothing here needs the inputs to be finite.

  Proof/Spec.lean states that function once.  Proof/RefValue.lean reads the reference's operations down to it;
  Proof/PayNetvlad.lean and Proof/PayProject.lean read what the two kernel bodies store; Proof/Value0.lean and
  Proof/Value1.lean carry that from the blocks a grid point writes to the whole arrays; Proof/Entry.lean says what
  each kernel region finds in the buffers in terms of the launch memory, and Proof/Bridge.lean joins them.  That the
  kernel program runs at all — every weakly fair execution ends, nothing faults, the arguments are left alone —
  is Proof/KernelIdeal/{Netvlad,Project,Run}.lean, at any float instance, and the same text about the program as
  printed is Proof/Kernel/.  The idealization pass rewrote nothing, so its conjunct is trivial.
-/
import proofs.«162594_j65197603553867_1_alg».proof.Defs
import proofs.«162594_j65197603553867_1_alg».proof.Proof.Gen.Kernel
import proofs.«162594_j65197603553867_1_alg».proof.Proof.Gen.KernelIdeal
import proofs.«162594_j65197603553867_1_alg».proof.Proof.Gen.ReferenceIdeal
import proofs.«162594_j65197603553867_1_alg».proof.Proof.Gen.Pre_finite_inputs
import proofs.«162594_j65197603553867_1_alg».proof.Proof.Kernel.Run
import proofs.«162594_j65197603553867_1_alg».proof.Proof.KernelIdeal.Run
import proofs.«162594_j65197603553867_1_alg».proof.Proof.Gen.ReferenceIdeal.Run
import proofs.«162594_j65197603553867_1_alg».proof.Proof.Gen.ReferenceIdeal.Read
import proofs.«162594_j65197603553867_1_alg».proof.Proof.RefValue
import proofs.«162594_j65197603553867_1_alg».proof.Proof.Bridge
import Idealize.ShloMosaic.Adequacy
import Idealize.ShloMosaic.Init

noncomputable section

namespace Cert.Proof

open Idealize.ShloMosaic Idealize.SL.Sem Idealize.ShloMosaic.ValueIdx

/-- The program as printed runs and leaves its arguments alone. -/
theorem frame_kernel : Cert.frame_Kernel := fun m ρ _ => Cert.Kernel.Hand.frame (F := Bits) m ρ

/-- So does its idealized print. -/
theorem frame_kernelIdeal : Cert.frame_KernelIdeal := fun m ρ _ => Cert.KernelIdeal.Hand.frame (F := Ideal) m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- The reference's last stage, of the kernel program's launched arguments, is the kernel program's result array:
    at every row p and column o both are the specification's value. -/
theorem results_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Read.val_main_v40 (F := Ideal) (Cert.KernelIdeal.Entry.argX m c) (Cert.KernelIdeal.Entry.argW m c)
        (Cert.KernelIdeal.Entry.argB m c) (Cert.KernelIdeal.Entry.argC m c) (Cert.KernelIdeal.Entry.argR m c)
      = Cert.KernelIdeal.Value1.resultOut (Cert.KernelIdeal.Hand.V3 (F := Ideal) m ρ) c := by
  funext i
  obtain ⟨p, o, rfl⟩ : ∃ (p : Fin 32) (o : Fin 1024), i = ix2 p o := ⟨i 0, i 1, eq_ix2 i⟩
  exact (Cert.RefValue.ref_apply _ _ _ _ _ p o).trans (Cert.KernelIdeal.Bridge.result_apply m ρ c p o).symm

/-- From memories that agree on the arguments both idealized programs run, and end with equal results. -/
theorem algebraic : Cert.algebraic_KernelIdeal_ReferenceIdeal := by
  intro m ρ m' ρ' _ hagree
  refine ⟨fun c => Cert.KernelIdeal.Value1.resultOut (Cert.KernelIdeal.Hand.V3 (F := Ideal) m ρ) c,
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2.1, (hagree c).2.2.2.1,
    (hagree c).2.2.2.2]
  exact results_agree m ρ c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
